-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v113)) (v2 : (c : Dev Cert.KernelIdeal.nD) → Buf (Elt Ideal) ((c.tc : Thread Cert.KernelIdeal.nD Cert.KernelIdeal.τ).loc Cert.KernelIdeal.main_v105)) (v3 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_v117) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S250000x4 : Shape := ⟨2, ![250000, 4]⟩
abbrev S250000x1 : Shape := ⟨2, ![250000, 1]⟩
abbrev S250000 : Shape := ⟨1, ![250000]⟩
abbrev S4000000x1 : Shape := ⟨2, ![4000000, 1]⟩
abbrev S4000000 : Shape := ⟨1, ![4000000]⟩
abbrev S_ : Shape := ⟨0, ![]⟩
abbrev S1 : Shape := ⟨1, ![1]⟩
abbrev S3999999 : Shape := ⟨1, ![3999999]⟩
abbrev S4000000x3 : Shape := ⟨2, ![4000000, 3]⟩
abbrev S20000x35x4 : Shape := ⟨3, ![20000, 35, 4]⟩
abbrev S4000000x2 : Shape := ⟨2, ![4000000, 2]⟩
abbrev S20000 : Shape := ⟨1, ![20000]⟩
abbrev S20000x3 : Shape := ⟨2, ![20000, 3]⟩

abbrev nBuf : Space → Nat
  | .hbm => 172
  | .vmem => 4
  | .smem => 0
  | _ => 0

abbrev hbmTy0_0 (i : Nat) : BufTy := match i % 128 with
  | 0 => ⟨S4000000x4, .f32⟩
  | 1 => ⟨S4000000x4, .i32⟩
  | 2 => ⟨S4000000x1, .i32⟩
  | 3 => ⟨S4000000, .i32⟩
  | 4 => ⟨S4000000x1, .i32⟩
  | 5 => ⟨S4000000, .i32⟩
  | 6 => ⟨S4000000x1, .i32⟩
  | 7 => ⟨S4000000, .i32⟩
  | 8 => ⟨S4000000x1, .i32⟩
  | 9 => ⟨S4000000, .i32⟩
  | 10 => ⟨S4000000, .i32⟩
  | 11 => ⟨S4000000, .i32⟩
  | 12 => ⟨S4000000, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S4000000, .i32⟩
  | 22 => ⟨S4000000, .i32⟩
  | 23 => ⟨S_, .i1⟩
  | 24 => ⟨S1, .i1⟩
  | 25 => ⟨S3999999, .i32⟩
  | 26 => ⟨S3999999, .i32⟩
  | 27 => ⟨S3999999, .i1⟩
  | 28 => ⟨S4000000, .i1⟩
  | 29 => ⟨S4000000, .i32⟩
  | 30 => ⟨S_, .i32⟩
  | 31 => ⟨S_, .i32⟩
  | 32 => ⟨S4000000, .i32⟩
  | 33 => ⟨S_, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S_, .i32⟩
  | 41 => ⟨S_, .i32⟩
  | 42 => ⟨S4000000, .i32⟩
  | 43 => ⟨S4000000, .i32⟩
  | 44 => ⟨S_, .i32⟩
  | 45 => ⟨S4000000, .i32⟩
  | 46 => ⟨S4000000, .i1⟩
  | 47 => ⟨S_, .i32⟩
  | 48 => ⟨S4000000, .i32⟩
  | 49 => ⟨S_, .i32⟩
  | 50 => ⟨S_, .i32⟩
  | 51 => ⟨S4000000, .i32⟩
  | 52 => ⟨S4000000, .i32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S4000000, .i32⟩
  | 62 => ⟨S4000000, .i32⟩
  | 63 => ⟨S4000000, .i32⟩
  | 64 => ⟨S4000000, .i32⟩
  | 65 => ⟨S_, .i32⟩
  | 66 => ⟨S4000000, .i32⟩
  | 67 => ⟨S_, .i32⟩
  | 68 => ⟨S4000000, .i32⟩
  | 69 => ⟨S4000000, .i1⟩
  | 70 => ⟨S_, .i32⟩
  | 71 => ⟨S4000000, .i32⟩
  | 72 => ⟨S4000000, .i32⟩
  | 73 => ⟨S4000000, .i32⟩
  | 74 => ⟨S4000000x1, .i32⟩
  | 75 => ⟨S4000000, .i32⟩
  | 76 => ⟨S_, .i32⟩
  | 77 => ⟨S4000000, .i32⟩
  | 78 => ⟨S4000000, .i1⟩
  | 79 => ⟨S_, .i32⟩
  | 80 => ⟨S4000000, .i32⟩
  | 81 => ⟨S4000000, .i32⟩
  | 82 => ⟨S4000000, .i32⟩
  | 83 => ⟨S4000000x1, .i32⟩
  | 84 => ⟨S4000000, .i32⟩
  | 85 => ⟨S_, .i32⟩
  | 86 => ⟨S4000000, .i32⟩
  | 87 => ⟨S4000000, .i1⟩
  | 88 => ⟨S4000000, .i1⟩
  | 89 => ⟨S_, .i32⟩
  | 90 => ⟨S4000000, .i32⟩
  | 91 => ⟨S4000000, .i1⟩
  | 92 => ⟨S4000000, .i1⟩
  | 93 => ⟨S_, .i32⟩
  | 94 => ⟨S_, .i32⟩
  | 95 => ⟨S4000000, .i32⟩
  | 96 => ⟨S4000000, .i32⟩
  | 97 => ⟨S_, .i32⟩
  | 98 => ⟨S_, .i32⟩
  | 99 => ⟨S4000000, .i32⟩
  | 100 => ⟨S4000000, .i32⟩
  | 101 => ⟨S4000000x1, .i32⟩
  | 102 => ⟨S4000000x1, .i32⟩
  | 103 => ⟨S4000000x1, .i32⟩
  | 104 => ⟨S4000000x3, .i32⟩
  | 105 => ⟨S_, .i32⟩
  | 106 => ⟨S4000000, .i32⟩
  | 107 => ⟨S4000000, .i1⟩
  | 108 => ⟨S_, .i32⟩
  | 109 => ⟨S4000000, .i32⟩
  | 110 => ⟨S4000000, .i32⟩
  | 111 => ⟨S4000000, .i32⟩
  | 112 => ⟨S4000000x1, .i32⟩
  | 113 => ⟨S4000000x3, .i32⟩
  | 114 => ⟨S_, .i32⟩
  | 115 => ⟨S4000000, .i32⟩
  | 116 => ⟨S4000000, .i1⟩
  | 117 => ⟨S_, .i32⟩
  | 118 => ⟨S4000000, .i32⟩
  | 119 => ⟨S4000000, .i32⟩
  | 120 => ⟨S4000000, .i32⟩
  | 121 => ⟨S4000000x1, .i32⟩
  | 122 => ⟨S4000000x4, .f32⟩
  | 123 => ⟨S_, .f32⟩
  | 124 => ⟨S20000x35x4, .f32⟩
  | 125 => ⟨S_, .i32⟩
  | 126 => ⟨S4000000, .i32⟩
  | 127 => ⟨S4000000, .i1⟩
  | _ => ⟨S4000000x4, .f32⟩

abbrev hbmTy0_1 (i : Nat) : BufTy := match i % 128 with
  | 0 => ⟨S_, .i32⟩
  | 1 => ⟨S4000000, .i32⟩
  | 2 => ⟨S4000000, .i32⟩
  | 3 => ⟨S4000000, .i32⟩
  | 4 => ⟨S_, .i32⟩
  | 5 => ⟨S4000000, .i32⟩
  | 6 => ⟨S4000000, .i1⟩
  | 7 => ⟨S_, .i32⟩
  | 8 => ⟨S4000000, .i32⟩
  | 9 => ⟨S4000000, .i32⟩
  | 10 => ⟨S4000000, .i32⟩
  | 11 => ⟨S4000000x1, .i32⟩
  | 12 => ⟨S4000000x1, .i32⟩
  | 13 => ⟨S4000000x2, .i32⟩
  | 14 => ⟨S20000x35x4, .f32⟩
  | 15 => ⟨S_, .i32⟩
  | 16 => ⟨S20000, .i32⟩
  | 17 => ⟨S4000000, .i32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S4000000x1, .i32⟩
  | 26 => ⟨S20000, .i32⟩
  | 27 => ⟨S_, .i32⟩
  | 28 => ⟨S20000x3, .i32⟩
  | 29 => ⟨S_, .i32⟩
  | 30 => ⟨S4000000, .i32⟩
  | 31 => ⟨S4000000, .i1⟩
  | 32 => ⟨S_, .i32⟩
  | 33 => ⟨S4000000, .i32⟩
  | 34 => ⟨S4000000, .i32⟩
  | 35 => ⟨S4000000, .i32⟩
  | 36 => ⟨S4000000x1, .i32⟩
  | 37 => ⟨S20000x3, .i32⟩
  | 38 => ⟨S4000000, .i1⟩
  | 39 => ⟨S4000000, .i32⟩
  | 40 => ⟨S_, .i32⟩
  | 41 => ⟨S_, .i32⟩
  | 42 => ⟨S_, .i32⟩
  | 43 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S250000x4, .f32⟩
  | .local _ .vmem, ⟨1, _⟩ => ⟨S250000x4, .f32⟩
  | .local _ .vmem, ⟨2, _⟩ => ⟨S250000x4, .i32⟩
  | .local _ .vmem, ⟨3, _⟩ => ⟨S250000x4, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_call0_v0 : Ref sig .tc := ⟨.hbm, 10, rfl⟩
abbrev main_call0_v1_0 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call1_v0 : Ref sig .tc := ⟨.hbm, 29, rfl⟩
abbrev main_call1_call0_c : Ref sig .tc := ⟨.hbm, 30, rfl⟩
abbrev main_call1_call0_v0 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_v26 : Ref sig .tc := ⟨.hbm, 39, rfl⟩
abbrev main_call3_c : Ref sig .tc := ⟨.hbm, 40, rfl⟩
abbrev main_call3_v0 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_c_6 : Ref sig .tc := ⟨.hbm, 49, rfl⟩
abbrev main_call4_v0 : Ref sig .tc := ⟨.hbm, 50, rfl⟩
abbrev main_call4_v1 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call5_v0 : Ref sig .tc := ⟨.hbm, 62, rfl⟩
abbrev main_call5_v1_0 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_call6_v0 : Ref sig .tc := ⟨.hbm, 94, rfl⟩
abbrev main_call6_v1 : Ref sig .tc := ⟨.hbm, 95, rfl⟩
abbrev main_v62 : Ref sig .tc := ⟨.hbm, 96, rfl⟩
abbrev main_c_17 : Ref sig .tc := ⟨.hbm, 97, rfl⟩
abbrev main_call7_v0 : Ref sig .tc := ⟨.hbm, 98, rfl⟩
abbrev main_call7_v1 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_c_21 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst : Ref sig .tc := ⟨.hbm, 123, rfl⟩
abbrev main_v82 : Ref sig .tc := ⟨.hbm, 124, rfl⟩
abbrev main_c_22 : Ref sig .tc := ⟨.hbm, 125, rfl⟩
abbrev main_v83 : Ref sig .tc := ⟨.hbm, 126, rfl⟩
abbrev main_v84 : Ref sig .tc := ⟨.hbm, 127, rfl⟩
abbrev main_c_23 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_24 : Ref sig .tc := ⟨.hbm, 132, rfl⟩
abbrev main_v88 : Ref sig .tc := ⟨.hbm, 133, rfl⟩
abbrev main_v89 : Ref sig .tc := ⟨.hbm, 134, rfl⟩
abbrev main_c_25 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_26 : Ref sig .tc := ⟨.hbm, 143, rfl⟩
abbrev main_v97 : Ref sig .tc := ⟨.hbm, 144, rfl⟩
abbrev main_v98 : Ref sig .tc := ⟨.hbm, 145, rfl⟩
abbrev main_c_27 : Ref sig .tc := ⟨.hbm, 146, rfl⟩
abbrev main_v99 : Ref sig .tc := ⟨.hbm, 147, rfl⟩
abbrev main_v100 : Ref sig .tc := ⟨.hbm, 148, rfl⟩
abbrev main_c_28 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_29 : Ref sig .tc := ⟨.hbm, 155, rfl⟩
abbrev main_v106 : Ref sig .tc := ⟨.hbm, 156, rfl⟩
abbrev main_c_30 : Ref sig .tc := ⟨.hbm, 157, rfl⟩
abbrev main_v107 : Ref sig .tc := ⟨.hbm, 158, rfl⟩
abbrev main_v108 : Ref sig .tc := ⟨.hbm, 159, rfl⟩
abbrev main_c_31 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_c_32 : Ref sig .tc := ⟨.hbm, 168, rfl⟩
abbrev main_v116 : Ref sig .tc := ⟨.hbm, 169, rfl⟩
abbrev main_c_33 : Ref sig .tc := ⟨.hbm, 170, rfl⟩
abbrev main_v117 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S250000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S250000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S250000x4_S250000x4_0_0 : ∀ a, (![0, 0] : Fin 2 → Nat) a + S250000x4.size a ≤ S250000x4.size a
  h_S250000x4 : 0 < S250000x4.numel
  slices_S250000x4_o0_0_S250000x1 : S250000x4.Slices ![0, 0] S250000x1
  shapeCasts_S250000x1_S250000 : S250000x1.ShapeCasts S250000
  slices_S250000x4_o0_1_S250000x1 : S250000x4.Slices ![0, 1] S250000x1
  slices_S250000x4_o0_2_S250000x1 : S250000x4.Slices ![0, 2] S250000x1
  shapeCasts_S250000_S250000x1 : S250000.ShapeCasts S250000x1
  concatenates_S250000x1_S250000x1_S250000x1_S250000x1_S250000x4_d1 : Shape.Concatenates [S250000x1, S250000x1, S250000x1, S250000x1] S250000x4 1
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  concatenates_S4000000x1_S4000000x1_S4000000x1_S4000000x3_d1 : Shape.Concatenates [S4000000x1, S4000000x1, S4000000x1] S4000000x3 1
  bcast_S_S20000x35x4 : S_.BroadcastsInDim S20000x35x4 (![] : Fin 0 → Fin S20000x35x4.rank)
  concatenates_S4000000x1_S4000000x1_S4000000x2_d1 : Shape.Concatenates [S4000000x1, S4000000x1] S4000000x2 1
  bcast_S_S20000 : S_.BroadcastsInDim S20000 (![] : Fin 0 → Fin S20000.rank)
  bcast_S_S20000x3 : S_.BroadcastsInDim S20000x3 (![] : Fin 0 → Fin S20000x3.rank)
  reducesTo_S4000000_S_d0 : S4000000.ReducesTo [0] S_
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  gather_S4000000x3_S4000000x1_S4000000x3_1_0_n_n_0_1_13_wf : GatherDims.WF S4000000x3 S4000000x1 S4000000x3 [1] [0] [] [0] [] 1 ![1, 3]
  gather_S4000000x4_S4000000x1_S4000000x4_1_0_n_n_0_1_14_wf : GatherDims.WF S4000000x4 S4000000x1 S4000000x4 [1] [0] [] [0] [] 1 ![1, 4]
  scatter_S20000x35x4_S4000000x2_S4000000x4_1_01_01_1_wf : ScatterDims.WF S20000x35x4 S4000000x2 S4000000x4 [1] [0, 1] [0, 1] 1
  scatter_S20000_S4000000x1_S4000000_n_0_0_1_wf : ScatterDims.WF S20000 S4000000x1 S4000000 [] [0] [0] 1
  scatter_S20000x3_S4000000x1_S4000000x3_1_0_0_1_wf : ScatterDims.WF S20000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S250000x4.size a ≤ S4000000x4.size a
  hwx0_0 : ∀ i : grid0.Coords, EltTy.bits .f32 = 32 ∨ (Rect.block (s := S4000000x4) S250000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S250000x4.size a ≤ S4000000x4.size a
  hwx0_1 : ∀ i : grid0.Coords, EltTy.bits .i32 = 32 ∨ (Rect.block (s := S4000000x4) S250000x4.size (cc0_transform_1 i) (hinb0_1 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def scatter_S20000x35x4_S4000000x2_S4000000x4_1_01_01_1 : ScatterDims S20000x35x4 S4000000x2 S4000000x4 where
  updateWindowDims := [1]
  insertedWindowDims := [0, 1]
  scatterDimsToOperandDims := [0, 1]
  indexVectorDim := 1
  wf := scatter_S20000x35x4_S4000000x2_S4000000x4_1_01_01_1_wf
def scatter_S20000_S4000000x1_S4000000_n_0_0_1 : ScatterDims S20000 S4000000x1 S4000000 where
  updateWindowDims := []
  insertedWindowDims := [0]
  scatterDimsToOperandDims := [0]
  indexVectorDim := 1
  wf := scatter_S20000_S4000000x1_S4000000_n_0_0_1_wf
def scatter_S20000x3_S4000000x1_S4000000x3_1_0_0_1 : ScatterDims S20000x3 S4000000x1 S4000000x3 where
  updateWindowDims := [1]
  insertedWindowDims := [0]
  scatterDimsToOperandDims := [0]
  indexVectorDim := 1
  wf := scatter_S20000x3_S4000000x1_S4000000x3_1_0_0_1_wf

abbrev win0_0 : Pipeline.Window sig grid0 :=
  Pipeline.Window.ofSpec (Memref.whole main_arg0) S250000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S250000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S1 : Shape := ⟨1, ![1]⟩
abbrev S3999999 : Shape := ⟨1, ![3999999]⟩
abbrev S20000x35x4 : Shape := ⟨3, ![20000, 35, 4]⟩
abbrev S4000000x2 : Shape := ⟨2, ![4000000, 2]⟩
abbrev S20000 : Shape := ⟨1, ![20000]⟩
abbrev S20000x3 : Shape := ⟨2, ![20000, 3]⟩

abbrev nBuf : Space → Nat
  | .hbm => 199
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .i32⟩
  | 4 => ⟨S4000000x3, .f32⟩
  | 5 => ⟨S1x3, .f32⟩
  | 6 => ⟨S4000000x3, .f32⟩
  | 7 => ⟨S4000000x3, .f32⟩
  | 8 => ⟨S1x3, .f32⟩
  | 9 => ⟨S4000000x3, .f32⟩
  | 10 => ⟨S4000000x3, .f32⟩
  | 11 => ⟨S4000000x3, .f32⟩
  | 12 => ⟨S4000000x3, .i32⟩
  | 13 => ⟨S_, .i32⟩
  | 14 => ⟨S4000000x3, .i32⟩
  | 15 => ⟨S4000000x3, .i1⟩
  | 16 => ⟨S1x3, .i32⟩
  | 17 => ⟨S4000000x3, .i32⟩
  | 18 => ⟨S4000000x3, .i1⟩
  | 19 => ⟨S4000000x3, .i1⟩
  | 20 => ⟨S_, .i1⟩
  | 21 => ⟨S4000000, .i1⟩
  | 22 => ⟨S4000000x1, .i32⟩
  | 23 => ⟨S4000000, .i32⟩
  | 24 => ⟨S_, .i32⟩
  | 25 => ⟨S4000000, .i32⟩
  | 26 => ⟨S4000000, .i32⟩
  | 27 => ⟨S4000000x1, .i32⟩
  | 28 => ⟨S4000000, .i32⟩
  | 29 => ⟨S4000000, .i32⟩
  | 30 => ⟨S_, .i32⟩
  | 31 => ⟨S4000000, .i32⟩
  | 32 => ⟨S4000000, .i32⟩
  | 33 => ⟨S4000000x1, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S4000000, .i32⟩
  | 41 => ⟨S4000000, .i32⟩
  | 42 => ⟨S4000000, .i32⟩
  | 43 => ⟨S_, .i32⟩
  | 44 => ⟨S4000000, .i32⟩
  | 45 => ⟨S4000000, .i1⟩
  | 46 => ⟨S_, .i32⟩
  | 47 => ⟨S4000000, .i32⟩
  | 48 => ⟨S4000000, .i32⟩
  | 49 => ⟨S4000000, .i32⟩
  | 50 => ⟨S4000000x1, .i32⟩
  | 51 => ⟨S4000000, .i32⟩
  | 52 => ⟨S4000000, .i32⟩
  | 53 => ⟨S_, .i1⟩
  | 54 => ⟨S1, .i1⟩
  | 55 => ⟨S3999999, .i32⟩
  | 56 => ⟨S3999999, .i32⟩
  | 57 => ⟨S3999999, .i1⟩
  | 58 => ⟨S4000000, .i1⟩
  | 59 => ⟨S4000000, .i32⟩
  | 60 => ⟨S_, .i32⟩
  | 61 => ⟨S_, .i32⟩
  | 62 => ⟨S4000000, .i32⟩
  | 63 => ⟨S_, .i32⟩
  | 64 => ⟨S4000000, .i32⟩
  | 65 => ⟨S4000000, .i32⟩
  | 66 => ⟨S_, .i32⟩
  | 67 => ⟨S_, .i32⟩
  | 68 => ⟨S4000000, .i32⟩
  | 69 => ⟨S4000000, .i32⟩
  | 70 => ⟨S_, .i32⟩
  | 71 => ⟨S_, .i32⟩
  | 72 => ⟨S4000000, .i32⟩
  | 73 => ⟨S4000000, .i32⟩
  | 74 => ⟨S_, .i32⟩
  | 75 => ⟨S4000000, .i32⟩
  | 76 => ⟨S4000000, .i1⟩
  | 77 => ⟨S_, .i32⟩
  | 78 => ⟨S4000000, .i32⟩
  | 79 => ⟨S_, .i32⟩
  | 80 => ⟨S_, .i32⟩
  | 81 => ⟨S4000000, .i32⟩
  | 82 => ⟨S4000000, .i32⟩
  | 83 => ⟨S_, .i32⟩
  | 84 => ⟨S4000000, .i32⟩
  | 85 => ⟨S4000000, .i1⟩
  | 86 => ⟨S_, .i32⟩
  | 87 => ⟨S4000000, .i32⟩
  | 88 => ⟨S4000000, .i32⟩
  | 89 => ⟨S4000000, .i32⟩
  | 90 => ⟨S4000000x1, .i32⟩
  | 91 => ⟨S4000000, .i32⟩
  | 92 => ⟨S4000000, .i32⟩
  | 93 => ⟨S4000000, .i32⟩
  | 94 => ⟨S4000000, .i32⟩
  | 95 => ⟨S_, .i32⟩
  | 96 => ⟨S4000000, .i32⟩
  | 97 => ⟨S_, .i32⟩
  | 98 => ⟨S4000000, .i32⟩
  | 99 => ⟨S4000000, .i1⟩
  | 100 => ⟨S_, .i32⟩
  | 101 => ⟨S4000000, .i32⟩
  | 102 => ⟨S4000000, .i32⟩
  | 103 => ⟨S4000000, .i32⟩
  | 104 => ⟨S4000000x1, .i32⟩
  | 105 => ⟨S4000000, .i32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000, .i32⟩
  | 115 => ⟨S_, .i32⟩
  | 116 => ⟨S4000000, .i32⟩
  | 117 => ⟨S4000000, .i1⟩
  | 118 => ⟨S4000000, .i1⟩
  | 119 => ⟨S_, .i32⟩
  | 120 => ⟨S4000000, .i32⟩
  | 121 => ⟨S4000000, .i1⟩
  | 122 => ⟨S4000000, .i1⟩
  | 123 => ⟨S_, .i32⟩
  | 124 => ⟨S_, .i32⟩
  | 125 => ⟨S4000000, .i32⟩
  | 126 => ⟨S4000000, .i32⟩
  | 127 => ⟨S_, .i32⟩
  | _ => ⟨S4000000x4, .f32⟩

abbrev hbmTy0_1 (i : Nat) : BufTy := match i % 128 with
  | 0 => ⟨S_, .i32⟩
  | 1 => ⟨S4000000, .i32⟩
  | 2 => ⟨S4000000, .i32⟩
  | 3 => ⟨S_, .f32⟩
  | 4 => ⟨S20000x35x4, .f32⟩
  | 5 => ⟨S_, .i32⟩
  | 6 => ⟨S4000000, .i32⟩
  | 7 => ⟨S4000000, .i1⟩
  | 8 => ⟨S_, .i32⟩
  | 9 => ⟨S4000000, .i32⟩
  | 10 => ⟨S4000000, .i32⟩
  | 11 => ⟨S4000000, .i32⟩
  | 12 => ⟨S4000000x1, .i32⟩
  | 13 => ⟨S4000000x4, .f32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000x1, .i32⟩
  | 30 => ⟨S4000000x2, .i32⟩
  | 31 => ⟨S20000x35x4, .f32⟩
  | 32 => ⟨S_, .i32⟩
  | 33 => ⟨S20000, .i32⟩
  | 34 => ⟨S4000000, .i32⟩
  | 35 => ⟨S_, .i32⟩
  | 36 => ⟨S4000000, .i32⟩
  | 37 => ⟨S4000000, .i1⟩
  | 38 => ⟨S_, .i32⟩
  | 39 => ⟨S4000000, .i32⟩
  | 40 => ⟨S4000000, .i32⟩
  | 41 => ⟨S4000000, .i32⟩
  | 42 => ⟨S4000000x1, .i32⟩
  | 43 => ⟨S20000, .i32⟩
  | 44 => ⟨S_, .i32⟩
  | 45 => ⟨S20000x3, .i32⟩
  | 46 => ⟨S_, .i32⟩
  | 47 => ⟨S4000000, .i32⟩
  | 48 => ⟨S4000000, .i1⟩
  | 49 => ⟨S_, .i32⟩
  | 50 => ⟨S4000000, .i32⟩
  | 51 => ⟨S4000000, .i32⟩
  | 52 => ⟨S4000000, .i32⟩
  | 53 => ⟨S4000000x1, .i32⟩
  | 54 => ⟨S4000000x3, .i32⟩
  | 55 => ⟨S4000000x3, .i32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S4000000x1, .i32⟩
  | 64 => ⟨S20000x3, .i32⟩
  | 65 => ⟨S4000000, .i1⟩
  | 66 => ⟨S4000000, .i32⟩
  | 67 => ⟨S_, .i32⟩
  | 68 => ⟨S_, .i32⟩
  | 69 => ⟨S_, .i32⟩
  | 70 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_call1_v0 : Ref sig .tc := ⟨.hbm, 40, rfl⟩
abbrev main_call1_v1_0 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call2_v0 : Ref sig .tc := ⟨.hbm, 59, rfl⟩
abbrev main_call2_call0_c : Ref sig .tc := ⟨.hbm, 60, rfl⟩
abbrev main_call2_call0_v0 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_call3_v0 : Ref sig .tc := ⟨.hbm, 67, rfl⟩
abbrev main_call3_v1 : Ref sig .tc := ⟨.hbm, 68, rfl⟩
abbrev main_v46 : Ref sig .tc := ⟨.hbm, 69, rfl⟩
abbrev main_call4_c : Ref sig .tc := ⟨.hbm, 70, rfl⟩
abbrev main_call4_v0 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_c_13 : Ref sig .tc := ⟨.hbm, 79, rfl⟩
abbrev main_call5_v0 : Ref sig .tc := ⟨.hbm, 80, rfl⟩
abbrev main_call5_v1 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call6_v0 : Ref sig .tc := ⟨.hbm, 92, rfl⟩
abbrev main_call6_v1_0 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_c_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_19 : Ref sig .tc := ⟨.hbm, 106, rfl⟩
abbrev main_v69 : Ref sig .tc := ⟨.hbm, 107, rfl⟩
abbrev main_v70 : Ref sig .tc := ⟨.hbm, 108, rfl⟩
abbrev main_c_20 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_21 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_22 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_23 : Ref sig .tc := ⟨.hbm, 123, rfl⟩
abbrev main_call7_v0 : Ref sig .tc := ⟨.hbm, 124, rfl⟩
abbrev main_call7_v1 : Ref sig .tc := ⟨.hbm, 125, rfl⟩
abbrev main_v82 : Ref sig .tc := ⟨.hbm, 126, rfl⟩
abbrev main_c_24 : Ref sig .tc := ⟨.hbm, 127, rfl⟩
abbrev main_call8_v0 : Ref sig .tc := ⟨.hbm, 128, rfl⟩
abbrev main_call8_v1 : Ref sig .tc := ⟨.hbm, 129, rfl⟩
abbrev main_v83 : Ref sig .tc := ⟨.hbm, 130, rfl⟩
abbrev main_cst_25 : Ref sig .tc := ⟨.hbm, 131, rfl⟩
abbrev main_v84 : Ref sig .tc := ⟨.hbm, 132, rfl⟩
abbrev main_c_26 : Ref sig .tc := ⟨.hbm, 133, rfl⟩
abbrev main_v85 : Ref sig .tc := ⟨.hbm, 134, rfl⟩
abbrev main_v86 : Ref sig .tc := ⟨.hbm, 135, rfl⟩
abbrev main_c_27 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_28 : Ref sig .tc := ⟨.hbm, 142, rfl⟩
abbrev main_v92 : Ref sig .tc := ⟨.hbm, 143, rfl⟩
abbrev main_v93 : Ref sig .tc := ⟨.hbm, 144, rfl⟩
abbrev main_c_29 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_c_30 : Ref sig .tc := ⟨.hbm, 149, rfl⟩
abbrev main_v97 : Ref sig .tc := ⟨.hbm, 150, rfl⟩
abbrev main_v98 : Ref sig .tc := ⟨.hbm, 151, rfl⟩
abbrev main_c_31 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_32 : Ref sig .tc := ⟨.hbm, 160, rfl⟩
abbrev main_v106 : Ref sig .tc := ⟨.hbm, 161, rfl⟩
abbrev main_v107 : Ref sig .tc := ⟨.hbm, 162, rfl⟩
abbrev main_c_33 : Ref sig .tc := ⟨.hbm, 163, rfl⟩
abbrev main_v108 : Ref sig .tc := ⟨.hbm, 164, rfl⟩
abbrev main_v109 : Ref sig .tc := ⟨.hbm, 165, rfl⟩
abbrev main_c_34 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_35 : Ref sig .tc := ⟨.hbm, 172, rfl⟩
abbrev main_v115 : Ref sig .tc := ⟨.hbm, 173, rfl⟩
abbrev main_c_36 : Ref sig .tc := ⟨.hbm, 174, rfl⟩
abbrev main_v116 : Ref sig .tc := ⟨.hbm, 175, rfl⟩
abbrev main_v117 : Ref sig .tc := ⟨.hbm, 176, rfl⟩
abbrev main_c_37 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_38 : Ref sig .tc := ⟨.hbm, 184, rfl⟩
abbrev main_v124 : Ref sig .tc := ⟨.hbm, 185, rfl⟩
abbrev main_v125 : Ref sig .tc := ⟨.hbm, 186, rfl⟩
abbrev main_c_39 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_c_40 : Ref sig .tc := ⟨.hbm, 195, rfl⟩
abbrev main_v133 : Ref sig .tc := ⟨.hbm, 196, rfl⟩
abbrev main_c_41 : Ref sig .tc := ⟨.hbm, 197, rfl⟩
abbrev main_v134 : Ref sig .tc := ⟨.hbm, 198, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  bcast_S_S4000000x3 : S_.BroadcastsInDim S4000000x3 (![] : Fin 0 → Fin S4000000x3.rank)
  reducesTo_S4000000x3_S4000000_d1 : S4000000x3.ReducesTo [1] S4000000
  h_S_ : 0 < S_.numel
  slices_S4000000x3_S4000000x1_0_0 : S4000000x3.Slices ![0, 0] S4000000x1
  shapeCasts_S4000000x1_S4000000 : S4000000x1.ShapeCasts S4000000
  bcast_S_S4000000 : S_.BroadcastsInDim S4000000 (![] : Fin 0 → Fin S4000000.rank)
  slices_S4000000x3_S4000000x1_0_1 : S4000000x3.Slices ![0, 1] S4000000x1
  slices_S4000000x3_S4000000x1_0_2 : S4000000x3.Slices ![0, 2] S4000000x1
  bcast_S4000000_S4000000x1_0 : S4000000.BroadcastsInDim S4000000x1 (![0] : Fin 1 → Fin S4000000x1.rank)
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S20000x35x4 : S_.BroadcastsInDim S20000x35x4 (![] : Fin 0 → Fin S20000x35x4.rank)
  concatenates_S4000000x1_S4000000x1_S4000000x2_d1 : Shape.Concatenates [S4000000x1, S4000000x1] S4000000x2 1
  bcast_S_S20000 : S_.BroadcastsInDim S20000 (![] : Fin 0 → Fin S20000.rank)
  bcast_S_S20000x3 : S_.BroadcastsInDim S20000x3 (![] : Fin 0 → Fin S20000x3.rank)
  reducesTo_S4000000_S_d0 : S4000000.ReducesTo [0] S_
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  gather_S4000000x4_S4000000x1_S4000000x4_1_0_n_n_0_1_14_wf : GatherDims.WF S4000000x4 S4000000x1 S4000000x4 [1] [0] [] [0] [] 1 ![1, 4]
  scatter_S20000x35x4_S4000000x2_S4000000x4_1_01_01_1_wf : ScatterDims.WF S20000x35x4 S4000000x2 S4000000x4 [1] [0, 1] [0, 1] 1
  scatter_S20000_S4000000x1_S4000000_n_0_0_1_wf : ScatterDims.WF S20000 S4000000x1 S4000000 [] [0] [0] 1
  gather_S4000000x3_S4000000x1_S4000000x3_1_0_n_n_0_1_13_wf : GatherDims.WF S4000000x3 S4000000x1 S4000000x3 [1] [0] [] [0] [] 1 ![1, 3]
  scatter_S20000x3_S4000000x1_S4000000x3_1_0_0_1_wf : ScatterDims.WF S20000x3 S4000000x1 S4000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def scatter_S20000x35x4_S4000000x2_S4000000x4_1_01_01_1 : ScatterDims S20000x35x4 S4000000x2 S4000000x4 where
  updateWindowDims := [1]
  insertedWindowDims := [0, 1]
  scatterDimsToOperandDims := [0, 1]
  indexVectorDim := 1
  wf := scatter_S20000x35x4_S4000000x2_S4000000x4_1_01_01_1_wf
def scatter_S20000_S4000000x1_S4000000_n_0_0_1 : ScatterDims S20000 S4000000x1 S4000000 where
  updateWindowDims := []
  insertedWindowDims := [0]
  scatterDimsToOperandDims := [0]
  indexVectorDim := 1
  wf := scatter_S20000_S4000000x1_S4000000_n_0_0_1_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def scatter_S20000x3_S4000000x1_S4000000x3_1_0_0_1 : ScatterDims S20000x3 S4000000x1 S4000000x3 where
  updateWindowDims := [1]
  insertedWindowDims := [0]
  scatterDimsToOperandDims := [0]
  indexVectorDim := 1
  wf := scatter_S20000x3_S4000000x1_S4000000x3_1_0_0_1_wf

class Facts : Prop extends Facts₀ where

variable [Facts]
-- ==== Proof.FrameK.lean ====
/-
  The frame of the voxel-bucketing program: one kernel region over a grid of sixteen blocks of 250000 points, then the
  host lines that sort the points by voxel and scatter them.

  The region reads the points array block by block and writes, beside each point, its three integer voxel coordinates
  and its flat voxel id; it touches nothing else, and a block of the output is written whole by the one store of the
  body, so what a grid point leaves behind is a function of that point's input block alone (`blockOut`). The host lines
  after the region each write one buffer of their own, none of them an array the region stages, so the points array
  ends as it was launched and every other buffer ends at the fold of those lines over the region's exit contents.
-/
import proofs.«173120_j5892695130408_1_alg».proof.Proof.Gen.Kernel.Launch
import proofs.«173120_j5892695130408_1_alg».proof.Proof.Gen.Kernel.Skeleton
import proofs.«173120_j5892695130408_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The host lines after the region, stretch by stretch: @main's own lines, and the body of each function it calls
    (two sorts, a running sum, a running maximum, five selects) in the place of the call. -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- A core's buffers when the region is entered: nothing runs before it, so they are the launch contents. -/
abbrev V0 (c : Dev nD) : Valuation τ sig (Elt F) :=
  StableHlo.after (List.flatten ([] : List (List (HloOp τ sig (Elt F))))) (fun b => m (c, b))
/-- The same read at a reference. -/
abbrev V (c : Dev nD) (b : Ref sig .tc) : Buf (Elt F) ((c : Thread nD τ).loc b) := V0 m c (Proc.devRef .tc b)

/-! No line allocates a buffer: each is a pure function of buffers into one buffer. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

/-! No line writes an array the region stages (the points array, the region's result): each writes its own result. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_10_keeps : (hostOps1_10 : List (HloOp τ sig (Elt F))).Forall fun op =>
    ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_11_keeps : (hostOps1_11 : List (HloOp τ sig (Elt F))).Forall fun op =>
    ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_12_keeps : (hostOps1_12 : List (HloOp τ sig (Elt F))).Forall fun op =>
    ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_13_keeps : (hostOps1_13 : List (HloOp τ sig (Elt F))).Forall fun op =>
    ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_14_keeps : (hostOps1_14 : List (HloOp τ sig (Elt F))).Forall fun op =>
    ∀ w, Proc.devRef .tc (Pipeline.arrRef spec0 w) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_15_keeps : (hostOps1_15 : List (HloOp τ sig (Elt F))).Forall fun op =>
    ∀ w, Proc.devRef .tc (Pipeline.arrRef spec0 w) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)

/-- Every line touches only unscoped device buffers: the staged arrays and the buffers the region passes by. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl | rfl | rfl | rfl | rfl | rfl | rfl | rfl | rfl | rfl | rfl | rfl
  exacts [Pipeline.sub_ucRefs op ((List.forall_iff_forall_mem.mp hostOps1_sub) op hop),
    Pipeline.sub_ucRefs op ((List.forall_iff_forall_mem.mp hostOps1_1_sub) op hop),
    Pipeline.sub_ucRefs op ((List.forall_iff_forall_mem.mp hostOps1_2_sub) op hop),
    Pipeline.sub_ucRefs op ((List.forall_iff_forall_mem.mp hostOps1_3_sub) op hop),
    Pipeline.sub_ucRefs op ((List.forall_iff_forall_mem.mp hostOps1_4_sub) op hop),
    Pipeline.sub_ucRefs op ((List.forall_iff_forall_mem.mp hostOps1_5_sub) op hop),
    Pipeline.sub_ucRefs op ((List.forall_iff_forall_mem.mp hostOps1_6_sub) op hop),
    Pipeline.sub_ucRefs op ((List.forall_iff_forall_mem.mp hostOps1_7_sub) op hop),
    Pipeline.sub_ucRefs op ((List.forall_iff_forall_mem.mp hostOps1_8_sub) op hop),
    Pipeline.sub_ucRefs op ((List.forall_iff_forall_mem.mp hostOps1_9_sub) op hop),
    Pipeline.sub_ucRefs op ((List.forall_iff_forall_mem.mp hostOps1_10_sub) op hop),
    Pipeline.sub_ucRefs op ((List.forall_iff_forall_mem.mp hostOps1_11_sub) op hop),
    Pipeline.sub_ucRefs op ((List.forall_iff_forall_mem.mp hostOps1_12_sub) op hop),
    Pipeline.sub_ucRefs op ((List.forall_iff_forall_mem.mp hostOps1_13_sub) op hop),
    Pipeline.sub_ucRefs op ((List.forall_iff_forall_mem.mp hostOps1_14_sub) op hop),
    Pipeline.sub_ucRefs op ((List.forall_iff_forall_mem.mp hostOps1_15_sub) op hop)]

theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl | rfl | rfl | rfl | rfl | rfl | rfl | rfl
  exacts [(List.forall_iff_forall_mem.mp hostOps1_fresh) op hop,
    (List.forall_iff_forall_mem.mp hostOps1_1_fresh) op hop,
    (List.forall_iff_forall_mem.mp hostOps1_2_fresh) op hop,
    (List.forall_iff_forall_mem.mp hostOps1_3_fresh) op hop,
    (List.forall_iff_forall_mem.mp hostOps1_4_fresh) op hop,
    (List.forall_iff_forall_mem.mp hostOps1_5_fresh) op hop,
    (List.forall_iff_forall_mem.mp hostOps1_6_fresh) op hop,
    (List.forall_iff_forall_mem.mp hostOps1_7_fresh) op hop,
    (List.forall_iff_forall_mem.mp hostOps1_8_fresh) op hop,
    (List.forall_iff_forall_mem.mp hostOps1_9_fresh) op hop,
    (List.forall_iff_forall_mem.mp hostOps1_10_fresh) op hop,
    (List.forall_iff_forall_mem.mp hostOps1_11_fresh) op hop,
    (List.forall_iff_forall_mem.mp hostOps1_12_fresh) op hop,
    (List.forall_iff_forall_mem.mp hostOps1_13_fresh) op hop,
    (List.forall_iff_forall_mem.mp hostOps1_14_fresh) op hop,
    (List.forall_iff_forall_mem.mp hostOps1_15_fresh) op hop]

theorem tail_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl | rfl | rfl | rfl | rfl | rfl | rfl | rfl | rfl | rfl | rfl | rfl | rfl | rfl | rfl
  exacts [(List.forall_iff_forall_mem.mp hostOps1_keeps) op hop,
    (List.forall_iff_forall_mem.mp hostOps1_1_keeps) op hop,
    (List.forall_iff_forall_mem.mp hostOps1_2_keeps) op hop,
    (List.forall_iff_forall_mem.mp hostOps1_3_keeps) op hop,
    (List.forall_iff_forall_mem.mp hostOps1_4_keeps) op hop,
    (List.forall_iff_forall_mem.mp hostOps1_5_keeps) op hop,
    (List.forall_iff_forall_mem.mp hostOps1_6_keeps) op hop,
    (List.forall_iff_forall_mem.mp hostOps1_7_keeps) op hop,
    (List.forall_iff_forall_mem.mp hostOps1_8_keeps) op hop,
    (List.forall_iff_forall_mem.mp hostOps1_9_keeps) op hop,
    (List.forall_iff_forall_mem.mp hostOps1_10_keeps) op hop,
    (List.forall_iff_forall_mem.mp hostOps1_11_keeps) op hop,
    (List.forall_iff_forall_mem.mp hostOps1_12_keeps) op hop,
    (List.forall_iff_forall_mem.mp hostOps1_13_keeps) op hop,
    (List.forall_iff_forall_mem.mp hostOps1_14_keeps) op hop,
    (List.forall_iff_forall_mem.mp hostOps1_15_keeps) op hop]

/-- @main is the region followed by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail trivial trivial (fun c => (main_chain c).trans rfl)

/-- The region finds the points array as launched. -/
theorem V_main_arg0 (c : Dev nD) : V m c main_arg0 = m ((c : Thread nD τ).loc main_arg0) := rfl

/-! ## The windows' blocks -/

/-- Window `w`'s block at grid point `t`, read off its array as the region finds it: for the points array, rows
    `250000 t` to `250000 t + 249999`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every grid point, whenever the proof data's array is the
    region-entry contents and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim from a run to the library's frame post: the points array is the input window's array, which the
    region leaves at its entry contents, the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## What the body leaves in the output window's buffer -/

/-- The whole block: the rectangle of the body's load of the input, its load of the output and its one store. -/
abbrev whole : Rect S250000x4 := Rect.unit (s := S250000x4) ![0, 0] S250000x4.size inb_S250000x4_S250000x4_0_0

/-- The output block from the input block `x0` (250000 points): per point the three voxel coordinates
    `⌊(x - lo) / size⌋` as integers, in the order z, y, x, and then the flat id `(cx · 1600 + cy) · 40 + cz` when
    all three are in range and the sentinel 90112000 otherwise. One store, of the whole block. -/
def blockOut (x0 : Vec F S250000x4 .f32) : Vec F S250000x4 .i32 :=
  View.canon [⟨whole, k0_pay1 (k0_pay2 (View.ld x0 whole)) (k0_pay3 (View.ld x0 whole)) (k0_pay4 (View.ld x0 whole))
    (k0_pay5 (View.ld x0 whole)) (k0_pay6 (View.ld x0 whole))⟩]

/-- That store covers the block. -/
theorem cover (p0 : Vec F S250000x4 .i32) (y : S250000x4.Idx) :
    ∃ pc ∈ ([⟨whole, p0⟩] : List (View.Piece (Elt F) S250000x4 .i32)), y ∈ pc.1.set :=
  View.cover_of_tiled [⟨whole, p0⟩] S250000x4.size (by rfl) y

/-! ## The body's triple -/

set_option maxHeartbeats 1000000 in
/-- The body on whole staging buffers, the input's at contents `x0` and the output's at anything, runs to the
    continuation with the input's buffer as it was and the output's at `blockOut x0`: it loads the input block, loads
    the output block (a value it never uses) and stores the computed block over it. -/
theorem sound_kernel (c : Dev nD) (E : Set ℕ) (i : grid0.Coords) (arg1 : Memref sig .tc .vmem S250000x4 .f32) (harg1 : arg1.IsWhole)
    (arg2 : Memref sig .tc .vmem S250000x4 .i32) (harg2 : arg2.IsWhole)
    (x0 : Vec F S250000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__bucket_kernel i arg1 harg1 arg2 harg2) K := by
  simp only [cc0__bucket_kernel_eq_skeleton]; unfold cc0__bucket_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The pipeline's proof data -/

/-- The proof data on core `c`: the arrays as the region finds them; after the body at point `t` the input's buffer
    at its block and the output's at `blockOut` of that block; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blockOut (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the region's result array ends at the blocks the grid points
    wrote, the points array as launched, and every other buffer at the fold of the later lines over that. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hΦ := fun _ _ => rfl)

/-- The frame: @main runs and the points array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Frame

end
-- ==== Proof.FrameKI.lean ====
/-
  The frame of the voxel-bucketing program: one kernel region over a grid of sixteen blocks of 250000 points, then the
  host lines that sort the points by voxel and scatter them.

  The region reads the points array block by block and writes, beside each point, its three integer voxel coordinates
  and its flat voxel id; it touches nothing else, and a block of the output is written whole by the one store of the
  body, so what a grid point leaves behind is a function of that point's input block alone (`blockOut`). The host lines
  after the region each write one buffer of their own, none of them an array the region stages, so the points array
  ends as it was launched and every other buffer ends at the fold of those lines over the region's exit contents.
-/
import proofs.«173120_j5892695130408_1_alg».proof.Proof.Gen.KernelIdeal.Launch
import proofs.«173120_j5892695130408_1_alg».proof.Proof.Gen.KernelIdeal.Skeleton
import proofs.«173120_j5892695130408_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The host lines after the region, stretch by stretch: @main's own lines, and the body of each function it calls
    (two sorts, a running sum, a running maximum, five selects) in the place of the call. -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- A core's buffers when the region is entered: nothing runs before it, so they are the launch contents. -/
abbrev V0 (c : Dev nD) : Valuation τ sig (Elt F) :=
  StableHlo.after (List.flatten ([] : List (List (HloOp τ sig (Elt F))))) (fun b => m (c, b))
/-- The same read at a reference. -/
abbrev V (c : Dev nD) (b : Ref sig .tc) : Buf (Elt F) ((c : Thread nD τ).loc b) := V0 m c (Proc.devRef .tc b)

/-! No line allocates a buffer: each is a pure function of buffers into one buffer. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

/-! No line writes an array the region stages (the points array, the region's result): each writes its own result. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_10_keeps : (hostOps1_10 : List (HloOp τ sig (Elt F))).Forall fun op =>
    ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_11_keeps : (hostOps1_11 : List (HloOp τ sig (Elt F))).Forall fun op =>
    ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_12_keeps : (hostOps1_12 : List (HloOp τ sig (Elt F))).Forall fun op =>
    ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_13_keeps : (hostOps1_13 : List (HloOp τ sig (Elt F))).Forall fun op =>
    ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_14_keeps : (hostOps1_14 : List (HloOp τ sig (Elt F))).Forall fun op =>
    ∀ w, Proc.devRef .tc (Pipeline.arrRef spec0 w) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_15_keeps : (hostOps1_15 : List (HloOp τ sig (Elt F))).Forall fun op =>
    ∀ w, Proc.devRef .tc (Pipeline.arrRef spec0 w) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)

/-- Every line touches only unscoped device buffers: the staged arrays and the buffers the region passes by. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl | rfl | rfl | rfl | rfl | rfl | rfl | rfl | rfl | rfl | rfl | rfl
  exacts [Pipeline.sub_ucRefs op ((List.forall_iff_forall_mem.mp hostOps1_sub) op hop),
    Pipeline.sub_ucRefs op ((List.forall_iff_forall_mem.mp hostOps1_1_sub) op hop),
    Pipeline.sub_ucRefs op ((List.forall_iff_forall_mem.mp hostOps1_2_sub) op hop),
    Pipeline.sub_ucRefs op ((List.forall_iff_forall_mem.mp hostOps1_3_sub) op hop),
    Pipeline.sub_ucRefs op ((List.forall_iff_forall_mem.mp hostOps1_4_sub) op hop),
    Pipeline.sub_ucRefs op ((List.forall_iff_forall_mem.mp hostOps1_5_sub) op hop),
    Pipeline.sub_ucRefs op ((List.forall_iff_forall_mem.mp hostOps1_6_sub) op hop),
    Pipeline.sub_ucRefs op ((List.forall_iff_forall_mem.mp hostOps1_7_sub) op hop),
    Pipeline.sub_ucRefs op ((List.forall_iff_forall_mem.mp hostOps1_8_sub) op hop),
    Pipeline.sub_ucRefs op ((List.forall_iff_forall_mem.mp hostOps1_9_sub) op hop),
    Pipeline.sub_ucRefs op ((List.forall_iff_forall_mem.mp hostOps1_10_sub) op hop),
    Pipeline.sub_ucRefs op ((List.forall_iff_forall_mem.mp hostOps1_11_sub) op hop),
    Pipeline.sub_ucRefs op ((List.forall_iff_forall_mem.mp hostOps1_12_sub) op hop),
    Pipeline.sub_ucRefs op ((List.forall_iff_forall_mem.mp hostOps1_13_sub) op hop),
    Pipeline.sub_ucRefs op ((List.forall_iff_forall_mem.mp hostOps1_14_sub) op hop),
    Pipeline.sub_ucRefs op ((List.forall_iff_forall_mem.mp hostOps1_15_sub) op hop)]

theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl | rfl | rfl | rfl | rfl | rfl | rfl | rfl
  exacts [(List.forall_iff_forall_mem.mp hostOps1_fresh) op hop,
    (List.forall_iff_forall_mem.mp hostOps1_1_fresh) op hop,
    (List.forall_iff_forall_mem.mp hostOps1_2_fresh) op hop,
    (List.forall_iff_forall_mem.mp hostOps1_3_fresh) op hop,
    (List.forall_iff_forall_mem.mp hostOps1_4_fresh) op hop,
    (List.forall_iff_forall_mem.mp hostOps1_5_fresh) op hop,
    (List.forall_iff_forall_mem.mp hostOps1_6_fresh) op hop,
    (List.forall_iff_forall_mem.mp hostOps1_7_fresh) op hop,
    (List.forall_iff_forall_mem.mp hostOps1_8_fresh) op hop,
    (List.forall_iff_forall_mem.mp hostOps1_9_fresh) op hop,
    (List.forall_iff_forall_mem.mp hostOps1_10_fresh) op hop,
    (List.forall_iff_forall_mem.mp hostOps1_11_fresh) op hop,
    (List.forall_iff_forall_mem.mp hostOps1_12_fresh) op hop,
    (List.forall_iff_forall_mem.mp hostOps1_13_fresh) op hop,
    (List.forall_iff_forall_mem.mp hostOps1_14_fresh) op hop,
    (List.forall_iff_forall_mem.mp hostOps1_15_fresh) op hop]

theorem tail_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl | rfl | rfl | rfl | rfl | rfl | rfl | rfl | rfl | rfl | rfl | rfl | rfl | rfl | rfl
  exacts [(List.forall_iff_forall_mem.mp hostOps1_keeps) op hop,
    (List.forall_iff_forall_mem.mp hostOps1_1_keeps) op hop,
    (List.forall_iff_forall_mem.mp hostOps1_2_keeps) op hop,
    (List.forall_iff_forall_mem.mp hostOps1_3_keeps) op hop,
    (List.forall_iff_forall_mem.mp hostOps1_4_keeps) op hop,
    (List.forall_iff_forall_mem.mp hostOps1_5_keeps) op hop,
    (List.forall_iff_forall_mem.mp hostOps1_6_keeps) op hop,
    (List.forall_iff_forall_mem.mp hostOps1_7_keeps) op hop,
    (List.forall_iff_forall_mem.mp hostOps1_8_keeps) op hop,
    (List.forall_iff_forall_mem.mp hostOps1_9_keeps) op hop,
    (List.forall_iff_forall_mem.mp hostOps1_10_keeps) op hop,
    (List.forall_iff_forall_mem.mp hostOps1_11_keeps) op hop,
    (List.forall_iff_forall_mem.mp hostOps1_12_keeps) op hop,
    (List.forall_iff_forall_mem.mp hostOps1_13_keeps) op hop,
    (List.forall_iff_forall_mem.mp hostOps1_14_keeps) op hop,
    (List.forall_iff_forall_mem.mp hostOps1_15_keeps) op hop]

/-- @main is the region followed by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail trivial trivial (fun c => (main_chain c).trans rfl)

/-- The region finds the points array as launched. -/
theorem V_main_arg0 (c : Dev nD) : V m c main_arg0 = m ((c : Thread nD τ).loc main_arg0) := rfl

/-! ## The windows' blocks -/

/-- Window `w`'s block at grid point `t`, read off its array as the region finds it: for the points array, rows
    `250000 t` to `250000 t + 249999`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every grid point, whenever the proof data's array is the
    region-entry contents and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim from a run to the library's frame post: the points array is the input window's array, which the
    region leaves at its entry contents, the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## What the body leaves in the output window's buffer -/

/-- The whole block: the rectangle of the body's load of the input, its load of the output and its one store. -/
abbrev whole : Rect S250000x4 := Rect.unit (s := S250000x4) ![0, 0] S250000x4.size inb_S250000x4_S250000x4_0_0

/-- The output block from the input block `x0` (250000 points): per point the three voxel coordinates
    `⌊(x - lo) / size⌋` as integers, in the order z, y, x, and then the flat id `(cx · 1600 + cy) · 40 + cz` when
    all three are in range and the sentinel 90112000 otherwise. One store, of the whole block. -/
def blockOut (x0 : Vec F S250000x4 .f32) : Vec F S250000x4 .i32 :=
  View.canon [⟨whole, k0_pay1 (k0_pay2 (View.ld x0 whole)) (k0_pay3 (View.ld x0 whole)) (k0_pay4 (View.ld x0 whole))
    (k0_pay5 (View.ld x0 whole)) (k0_pay6 (View.ld x0 whole))⟩]

/-- That store covers the block. -/
theorem cover (p0 : Vec F S250000x4 .i32) (y : S250000x4.Idx) :
    ∃ pc ∈ ([⟨whole, p0⟩] : List (View.Piece (Elt F) S250000x4 .i32)), y ∈ pc.1.set :=
  View.cover_of_tiled [⟨whole, p0⟩] S250000x4.size (by rfl) y

/-! ## The body's triple -/

set_option maxHeartbeats 1000000 in
/-- The body on whole staging buffers, the input's at contents `x0` and the output's at anything, runs to the
    continuation with the input's buffer as it was and the output's at `blockOut x0`: it loads the input block, loads
    the output block (a value it never uses) and stores the computed block over it. -/
theorem sound_kernel (c : Dev nD) (E : Set ℕ) (i : grid0.Coords) (arg1 : Memref sig .tc .vmem S250000x4 .f32) (harg1 : arg1.IsWhole)
    (arg2 : Memref sig .tc .vmem S250000x4 .i32) (harg2 : arg2.IsWhole)
    (x0 : Vec F S250000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__bucket_kernel i arg1 harg1 arg2 harg2) K := by
  simp only [cc0__bucket_kernel_eq_skeleton]; unfold cc0__bucket_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The pipeline's proof data -/

/-- The proof data on core `c`: the arrays as the region finds them; after the body at point `t` the input's buffer
    at its block and the output's at `blockOut` of that block; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blockOut (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the region's result array ends at the blocks the grid points
    wrote, the points array as launched, and every other buffer at the fold of the later lines over that. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hΦ := fun _ _ => rfl)

/-- The frame: @main runs and the points array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Frame

end
-- ==== Proof.RefOps.lean ====
import proofs.«173120_j5892695130408_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The first 39 operations of the reference: from the points to the voxel coordinates and the flat voxel id. -/
abbrev headOps : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
    StableHlo.unary main_cst_0 main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),
    StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F)),
    StableHlo.unary main_cst main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F)),
    StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F)),
    StableHlo.unary main_v6 main_v7 (Host.floor : (⟨S4000000x3, .f32⟩ : BufTy).Contents (Elt F) → (⟨S4000000x3, .f32⟩ : BufTy).Contents (Elt F)),
    StableHlo.unary main_v7 main_v8 (fptosi 32 : (⟨S4000000x3, .f32⟩ : BufTy).Contents (Elt F) → (⟨S4000000x3, .i32⟩ : BufTy).Contents (Elt F)),
    StableHlo.nullary main_c_1 (constantI S_ 32 0#32),
    StableHlo.unary main_c_1 main_v9 (broadcastInDim S4000000x3 ![] bcast_S_S4000000x3 : (⟨S_, .i32⟩ : BufTy).Contents (Elt F) → (⟨S4000000x3, .i32⟩ : BufTy).Contents (Elt F)),
    StableHlo.binary main_v8 main_v9 main_v10 (cmpi .sge : (⟨S4000000x3, .i32⟩ : BufTy).Contents (Elt F) → (⟨S4000000x3, .i32⟩ : BufTy).Contents (Elt F) → (⟨S4000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S4000000x3 ![0, 1] bcast_S1x3_S4000000x3_0_1 : (⟨S1x3, .i32⟩ : BufTy).Contents (Elt F) → (⟨S4000000x3, .i32⟩ : BufTy).Contents (Elt F)),
    StableHlo.binary main_v8 main_v12 main_v13 (cmpi .slt : (⟨S4000000x3, .i32⟩ : BufTy).Contents (Elt F) → (⟨S4000000x3, .i32⟩ : BufTy).Contents (Elt F) → (⟨S4000000x3, .i1⟩ : BufTy).Contents (Elt F)),
    StableHlo.binary main_v10 main_v13 main_v14 (andi : (⟨S4000000x3, .i1⟩ : BufTy).Contents (Elt F) → (⟨S4000000x3, .i1⟩ : BufTy).Contents (Elt F) → (⟨S4000000x3, .i1⟩ : BufTy).Contents (Elt F)),
    StableHlo.nullary main_c_2 (constantI S_ 1 1#1),
    StableHlo.binary main_v14 main_c_2 main_v15 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),
    StableHlo.unary main_v8 main_v16 ((extractStridedSlice S4000000x1 ![0, 0] · slices_S4000000x3_S4000000x1_0_0) : (⟨S4000000x3, .i32⟩ : BufTy).Contents (Elt F) → (⟨S4000000x1, .i32⟩ : BufTy).Contents (Elt F)),
    StableHlo.reshape main_v16 main_v17 rfl shapeCasts_S4000000x1_S4000000,
    StableHlo.nullary main_c_3 (constantI S_ 32 1600#32),
    StableHlo.unary main_c_3 main_v18 (broadcastInDim S4000000 ![] bcast_S_S4000000 : (⟨S_, .i32⟩ : BufTy).Contents (Elt F) → (⟨S4000000, .i32⟩ : BufTy).Contents (Elt F)),
    StableHlo.binary main_v17 main_v18 main_v19 (muli : (⟨S4000000, .i32⟩ : BufTy).Contents (Elt F) → (⟨S4000000, .i32⟩ : BufTy).Contents (Elt F) → (⟨S4000000, .i32⟩ : BufTy).Contents (Elt F)),
    StableHlo.unary main_v8 main_v20 ((extractStridedSlice S4000000x1 ![0, 1] · slices_S4000000x3_S4000000x1_0_1) : (⟨S4000000x3, .i32⟩ : BufTy).Contents (Elt F) → (⟨S4000000x1, .i32⟩ : BufTy).Contents (Elt F)),
    StableHlo.reshape main_v20 main_v21 rfl shapeCasts_S4000000x1_S4000000,
    StableHlo.binary main_v19 main_v21 main_v22 (addi : (⟨S4000000, .i32⟩ : BufTy).Contents (Elt F) → (⟨S4000000, .i32⟩ : BufTy).Contents (Elt F) → (⟨S4000000, .i32⟩ : BufTy).Contents (Elt F)),
    StableHlo.nullary main_c_4 (constantI S_ 32 40#32),
    StableHlo.unary main_c_4 main_v23 (broadcastInDim S4000000 ![] bcast_S_S4000000 : (⟨S_, .i32⟩ : BufTy).Contents (Elt F) → (⟨S4000000, .i32⟩ : BufTy).Contents (Elt F)),
    StableHlo.binary main_v22 main_v23 main_v24 (muli : (⟨S4000000, .i32⟩ : BufTy).Contents (Elt F) → (⟨S4000000, .i32⟩ : BufTy).Contents (Elt F) → (⟨S4000000, .i32⟩ : BufTy).Contents (Elt F)),
    StableHlo.unary main_v8 main_v25 ((extractStridedSlice S4000000x1 ![0, 2] · slices_S4000000x3_S4000000x1_0_2) : (⟨S4000000x3, .i32⟩ : BufTy).Contents (Elt F) → (⟨S4000000x1, .i32⟩ : BufTy).Contents (Elt F)),
    StableHlo.reshape main_v25 main_v26 rfl shapeCasts_S4000000x1_S4000000,
    StableHlo.binary main_v24 main_v26 main_v27 (addi : (⟨S4000000, .i32⟩ : BufTy).Contents (Elt F) → (⟨S4000000, .i32⟩ : BufTy).Contents (Elt F) → (⟨S4000000, .i32⟩ : BufTy).Contents (Elt F)),
    StableHlo.nullary main_c_5 (constantI S_ 32 90112000#32),
    StableHlo.TRef.unary (.of main_c_5 : StableHlo.TRef sig ⟨S_, .i32⟩) main_call0.v0 id,
    StableHlo.TRef.unary main_call0.v0 main_call0.v1 (broadcastInDim S4000000 ![] bcast_S_S4000000),
    StableHlo.TRef.ternary (.of main_v15 : StableHlo.TRef sig ⟨S4000000, .i1⟩) (.of main_v27 : StableHlo.TRef sig ⟨S4000000, .i32⟩) main_call0.v1 main_call0.v2 select ]

/-- The other 159 operations: sorting by voxel id, ranking inside a voxel, ordering voxels by first appearance, and the four scatters. -/
abbrev tailOps : List (HloOp τ sig (Elt F)) :=
  [ StableHlo.TRef.nullary main_call1.v0 (iotaInDim S4000000 32 0),
    StableHlo.TRef.binary (.of main_v28 : StableHlo.TRef sig ⟨S4000000, .i32⟩) main_call1.v0 main_call1.v1_0 (fun x y => (Host.sort2 S4000000 0 comparator_i32_i32_d0 x y).1),
    StableHlo.TRef.binary (.of main_v28 : StableHlo.TRef sig ⟨S4000000, .i32⟩) main_call1.v0 main_call1.v1_1 (fun x y => (Host.sort2 S4000000 0 comparator_i32_i32_d0 x y).2),
    StableHlo.nullary main_c_6 (constantI S_ 32 0#32),
    StableHlo.unary main_c_6 main_v30 (broadcastInDim S4000000 ![] bcast_S_S4000000 : (⟨S_, .i32⟩ : BufTy).Contents (Elt F) → (⟨S4000000, .i32⟩ : BufTy).Contents (Elt F)),
    StableHlo.binary main_v29 main_v30 main_v31 (cmpi .slt : (⟨S4000000, .i32⟩ : BufTy).Contents (Elt F) → (⟨S4000000, .i32⟩ : BufTy).Contents (Elt F) → (⟨S4000000, .i1⟩ : BufTy).Contents (Elt F)),
    StableHlo.nullary main_c_7 (constantI S_ 32 4000000#32),
    StableHlo.unary main_c_7 main_v32 (broadcastInDim S4000000 ![] bcast_S_S4000000 : (⟨S_, .i32⟩ : BufTy).Contents (Elt F) → (⟨S4000000, .i32⟩ : BufTy).Contents (Elt F)),
    StableHlo.binary main_v29 main_v32 main_v33 (addi : (⟨S4000000, .i32⟩ : BufTy).Contents (Elt F) → (⟨S4000000, .i32⟩ : BufTy).Contents (Elt F) → (⟨S4000000, .i32⟩ : BufTy).Contents (Elt F)),
    StableHlo.ternary main_v31 main_v33 main_v29 main_v34 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v34 main_v35 (broadcastInDim S4000000x1 ![0] bcast_S4000000_S4000000x1_0 : (⟨S4000000, .i32⟩ : BufTy).Contents (Elt F) → (⟨S4000000x1, .i32⟩ : BufTy).Contents (Elt F)),
    StableHlo.binary main_v28 main_v35 main_v36 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v37 (iotaInDim S4000000 32 0),
    StableHlo.nullary main_c_8 (constantI S_ 1 1#1),
    StableHlo.unary main_c_8 main_v38 (broadcastInDim S1 ![] bcast_S_S1 : (⟨S_, .i1⟩ : BufTy).Contents (Elt F) → (⟨S1, .i1⟩ : BufTy).Contents (Elt F)),
    StableHlo.unary main_v36 main_v39 ((extractStridedSlice S3999999 ![1] · slices_S4000000_S3999999_1) : (⟨S4000000, .i32⟩ : BufTy).Contents (Elt F) → (⟨S3999999, .i32⟩ : BufTy).Contents (Elt F)),
    StableHlo.unary main_v36 main_v40 ((extractStridedSlice S3999999 ![0] · slices_S4000000_S3999999_0) : (⟨S4000000, .i32⟩ : BufTy).Contents (Elt F) → (⟨S3999999, .i32⟩ : BufTy).Contents (Elt F)),
    StableHlo.binary main_v39 main_v40 main_v41 (cmpi .ne : (⟨S3999999, .i32⟩ : BufTy).Contents (Elt F) → (⟨S3999999, .i32⟩ : BufTy).Contents (Elt F) → (⟨S3999999, .i1⟩ : BufTy).Contents (Elt F)),
    StableHlo.binary main_v38 main_v41 main_v42 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    StableHlo.TRef.unary (.of main_v42 : StableHlo.TRef sig ⟨S4000000, .i1⟩) main_call2.v0 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v0 main_call2.call0.v0 main_call2.call0.v1 (fun x v => Host.reduceWindow IntOp.addi ![4000000] ![1] ![3999999] ![0] x v reduceWindows_S4000000_S4000000_w4000000s1p3999999_0 h_S_),
    StableHlo.nullary main_c_9 (constantI S_ 32 1#32),
    StableHlo.unary main_c_9 main_v44 (broadcastInDim S4000000 ![] bcast_S_S4000000 : (⟨S_, .i32⟩ : BufTy).Contents (Elt F) → (⟨S4000000, .i32⟩ : BufTy).Contents (Elt F)),
    StableHlo.binary main_v43 main_v44 main_v45 (subi : (⟨S4000000, .i32⟩ : BufTy).Contents (Elt F) → (⟨S4000000, .i32⟩ : BufTy).Contents (Elt F) → (⟨S4000000, .i32⟩ : BufTy).Contents (Elt F)),
    StableHlo.nullary main_c_10 (constantI S_ 32 0#32),
    StableHlo.TRef.unary (.of main_c_10 : StableHlo.TRef sig ⟨S_, .i32⟩) main_call3.v0 id,
    StableHlo.TRef.unary main_call3.v0 main_call3.v1 (broadcastInDim S4000000 ![] bcast_S_S4000000),
    StableHlo.TRef.ternary (.of main_v42 : StableHlo.TRef sig ⟨S4000000, .i1⟩) (.of main_v37 : StableHlo.TRef sig ⟨S4000000, .i32⟩) main_call3.v1 main_call3.v2 select,
    StableHlo.TRef.nullary main_call4.c (constantI S_ 32 2147483648#32),
    StableHlo.TRef.unary main_call4.c main_call4.v0 (broadcastInDim S_ ![] bcast_S_S_),
    StableHlo.TRef.binary (.of main_v46 : StableHlo.TRef sig ⟨S4000000, .i32⟩) main_call4.v0 main_call4.v1 (fun x v => Host.reduceWindow IntOp.maxsi ![4000000] ![1] ![3999999] ![0] x v reduceWindows_S4000000_S4000000_w4000000s1p3999999_0 h_S_),
    StableHlo.binary main_v37 main_v47 main_v48 (subi : (⟨S4000000, .i32⟩ : BufTy).Contents (Elt F) → (⟨S4000000, .i32⟩ : BufTy).Contents (Elt F) → (⟨S4000000, .i32⟩ : BufTy).Contents (Elt F)),
    StableHlo.nullary main_c_11 (constantI S_ 32 90112000#32),
    StableHlo.unary main_c_11 main_v49 (broadcastInDim S4000000 ![] bcast_S_S4000000 : (⟨S_, .i32⟩ : BufTy).Contents (Elt F) → (⟨S4000000, .i32⟩ : BufTy).Contents (Elt F)),
    StableHlo.binary main_v36 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_12 (constantI S_ 32 4000000#32),
    StableHlo.unary main_c_12 main_v51 (broadcastInDim S4000000 ![] bcast_S_S4000000 : (⟨S_, .i32⟩ : BufTy).Contents (Elt F) → (⟨S4000000, .i32⟩ : BufTy).Contents (Elt F)),
    StableHlo.nullary main_c_13 (constantI S_ 32 4000000#32),
    StableHlo.TRef.unary (.of main_c_13 : StableHlo.TRef sig ⟨S_, .i32⟩) main_call5.v0 id,
    StableHlo.TRef.unary main_call5.v0 main_call5.v1 (broadcastInDim S4000000 ![] bcast_S_S4000000),
    StableHlo.TRef.ternary (.of main_v50 : StableHlo.TRef sig ⟨S4000000, .i1⟩) (.of main_v29 : StableHlo.TRef sig ⟨S4000000, .i32⟩) main_call5.v1 main_call5.v2 select,
    StableHlo.nullary main_c_14 (constantI S_ 32 0#32),
    StableHlo.unary main_c_14 main_v53 (broadcastInDim S4000000 ![] bcast_S_S4000000 : (⟨S_, .i32⟩ : BufTy).Contents (Elt F) → (⟨S4000000, .i32⟩ : BufTy).Contents (Elt F)),
    StableHlo.binary main_v45 main_v53 main_v54 (cmpi .slt : (⟨S4000000, .i32⟩ : BufTy).Contents (Elt F) → (⟨S4000000, .i32⟩ : BufTy).Contents (Elt F) → (⟨S4000000, .i1⟩ : BufTy).Contents (Elt F)),
    StableHlo.nullary main_c_15 (constantI S_ 32 4000000#32),
    StableHlo.unary main_c_15 main_v55 (broadcastInDim S4000000 ![] bcast_S_S4000000 : (⟨S_, .i32⟩ : BufTy).Contents (Elt F) → (⟨S4000000, .i32⟩ : BufTy).Contents (Elt F)),
    StableHlo.binary main_v45 main_v55 main_v56 (addi : (⟨S4000000, .i32⟩ : BufTy).Contents (Elt F) → (⟨S4000000, .i32⟩ : BufTy).Contents (Elt F) → (⟨S4000000, .i32⟩ : BufTy).Contents (Elt F)),
    StableHlo.ternary main_v54 main_v56 main_v45 main_v57 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v57 main_v58 (broadcastInDim S4000000x1 ![0] bcast_S4000000_S4000000x1_0 : (⟨S4000000, .i32⟩ : BufTy).Contents (Elt F) → (⟨S4000000x1, .i32⟩ : BufTy).Contents (Elt F)),
    StableHlo.ternary main_v51 main_v58 main_v52 main_v59 ((fun x i u => Host.scatter scatter_S4000000_S4000000x1_S4000000_n_0_0_1 IntOp.minsi x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.TRef.nullary main_call6.v0 (iotaInDim S4000000 32 0),
    StableHlo.TRef.binary (.of main_v59 : StableHlo.TRef sig ⟨S4000000, .i32⟩) main_call6.v0 main_call6.v1_0 (fun x y => (Host.sort2 S4000000 0 comparator_i32_i32_d0 x y).1),
    StableHlo.TRef.binary (.of main_v59 : StableHlo.TRef sig ⟨S4000000, .i32⟩) main_call6.v0 main_call6.v1_1 (fun x y => (Host.sort2 S4000000 0 comparator_i32_i32_d0 x y).2),
    StableHlo.nullary main_c_16 (constantI S_ 32 0#32),
    StableHlo.unary main_c_16 main_v61 (broadcastInDim S4000000 ![] bcast_S_S4000000 : (⟨S_, .i32⟩ : BufTy).Contents (Elt F) → (⟨S4000000, .i32⟩ : BufTy).Contents (Elt F)),
    StableHlo.nullary main_c_17 (constantI S_ 32 0#32),
    StableHlo.unary main_c_17 main_v62 (broadcastInDim S4000000 ![] bcast_S_S4000000 : (⟨S_, .i32⟩ : BufTy).Contents (Elt F) → (⟨S4000000, .i32⟩ : BufTy).Contents (Elt F)),
    StableHlo.binary main_v60 main_v62 main_v63 (cmpi .slt : (⟨S4000000, .i32⟩ : BufTy).Contents (Elt F) → (⟨S4000000, .i32⟩ : BufTy).Contents (Elt F) → (⟨S4000000, .i1⟩ : BufTy).Contents (Elt F)),
    StableHlo.nullary main_c_18 (constantI S_ 32 4000000#32),
    StableHlo.unary main_c_18 main_v64 (broadcastInDim S4000000 ![] bcast_S_S4000000 : (⟨S_, .i32⟩ : BufTy).Contents (Elt F) → (⟨S4000000, .i32⟩ : BufTy).Contents (Elt F)),
    StableHlo.binary main_v60 main_v64 main_v65 (addi : (⟨S4000000, .i32⟩ : BufTy).Contents (Elt F) → (⟨S4000000, .i32⟩ : BufTy).Contents (Elt F) → (⟨S4000000, .i32⟩ : BufTy).Contents (Elt F)),
    StableHlo.ternary main_v63 main_v65 main_v60 main_v66 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v66 main_v67 (broadcastInDim S4000000x1 ![0] bcast_S4000000_S4000000x1_0 : (⟨S4000000, .i32⟩ : BufTy).Contents (Elt F) → (⟨S4000000x1, .i32⟩ : BufTy).Contents (Elt F)),
    StableHlo.ternary main_v61 main_v67 main_v37 main_v68 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_19 (constantI S_ 32 0#32),
    StableHlo.unary main_c_19 main_v69 (broadcastInDim S4000000 ![] bcast_S_S4000000 : (⟨S_, .i32⟩ : BufTy).Contents (Elt F) → (⟨S4000000, .i32⟩ : BufTy).Contents (Elt F)),
    StableHlo.binary main_v45 main_v69 main_v70 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 4000000#32),
    StableHlo.unary main_c_20 main_v71 (broadcastInDim S4000000 ![] bcast_S_S4000000 : (⟨S_, .i32⟩ : BufTy).Contents (Elt F) → (⟨S4000000, .i32⟩ : BufTy).Contents (Elt F)),
    StableHlo.binary main_v45 main_v71 main_v72 (addi : (⟨S4000000, .i32⟩ : BufTy).Contents (Elt F) → (⟨S4000000, .i32⟩ : BufTy).Contents (Elt F) → (⟨S4000000, .i32⟩ : BufTy).Contents (Elt F)),
    StableHlo.ternary main_v70 main_v72 main_v45 main_v73 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v73 main_v74 (broadcastInDim S4000000x1 ![0] bcast_S4000000_S4000000x1_0 : (⟨S4000000, .i32⟩ : BufTy).Contents (Elt F) → (⟨S4000000x1, .i32⟩ : BufTy).Contents (Elt F)),
    StableHlo.binary main_v68 main_v74 main_v75 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_c_21 (constantI S_ 32 20000#32),
    StableHlo.unary main_c_21 main_v76 (broadcastInDim S4000000 ![] bcast_S_S4000000 : (⟨S_, .i32⟩ : BufTy).Contents (Elt F) → (⟨S4000000, .i32⟩ : BufTy).Contents (Elt F)),
    StableHlo.binary main_v75 main_v76 main_v77 (cmpi .slt : (⟨S4000000, .i32⟩ : BufTy).Contents (Elt F) → (⟨S4000000, .i32⟩ : BufTy).Contents (Elt F) → (⟨S4000000, .i1⟩ : BufTy).Contents (Elt F)),
    StableHlo.binary main_v50 main_v77 main_v78 (andi : (⟨S4000000, .i1⟩ : BufTy).Contents (Elt F) → (⟨S4000000, .i1⟩ : BufTy).Contents (Elt F) → (⟨S4000000, .i1⟩ : BufTy).Contents (Elt F)),
    StableHlo.nullary main_c_22 (constantI S_ 32 35#32),
    StableHlo.unary main_c_22 main_v79 (broadcastInDim S4000000 ![] bcast_S_S4000000 : (⟨S_, .i32⟩ : BufTy).Contents (Elt F) → (⟨S4000000, .i32⟩ : BufTy).Contents (Elt F)),
    StableHlo.binary main_v48 main_v79 main_v80 (cmpi .slt : (⟨S4000000, .i32⟩ : BufTy).Contents (Elt F) → (⟨S4000000, .i32⟩ : BufTy).Contents (Elt F) → (⟨S4000000, .i1⟩ : BufTy).Contents (Elt F)),
    StableHlo.binary main_v78 main_v80 main_v81 (andi : (⟨S4000000, .i1⟩ : BufTy).Contents (Elt F) → (⟨S4000000, .i1⟩ : BufTy).Contents (Elt F) → (⟨S4000000, .i1⟩ : BufTy).Contents (Elt F)),
    StableHlo.nullary main_c_23 (constantI S_ 32 20000#32),
    StableHlo.TRef.unary (.of main_c_23 : StableHlo.TRef sig ⟨S_, .i32⟩) main_call7.v0 id,
    StableHlo.TRef.unary main_call7.v0 main_call7.v1 (broadcastInDim S4000000 ![] bcast_S_S4000000),
    StableHlo.TRef.ternary (.of main_v81 : StableHlo.TRef sig ⟨S4000000, .i1⟩) (.of main_v75 : StableHlo.TRef sig ⟨S4000000, .i32⟩) main_call7.v1 main_call7.v2 select,
    StableHlo.nullary main_c_24 (constantI S_ 32 0#32),
    StableHlo.TRef.unary (.of main_c_24 : StableHlo.TRef sig ⟨S_, .i32⟩) main_call8.v0 id,
    StableHlo.TRef.unary main_call8.v0 main_call8.v1 (broadcastInDim S4000000 ![] bcast_S_S4000000),
    StableHlo.TRef.ternary (.of main_v81 : StableHlo.TRef sig ⟨S4000000, .i1⟩) (.of main_v48 : StableHlo.TRef sig ⟨S4000000, .i32⟩) main_call8.v1 main_call8.v2 select,
    StableHlo.nullary main_cst_25 (constant S_ .f32 0x00000000#32),
    StableHlo.unary main_cst_25 main_v84 (broadcastInDim S20000x35x4 ![] bcast_S_S20000x35x4 : (⟨S_, .f32⟩ : BufTy).Contents (Elt F) → (⟨S20000x35x4, .f32⟩ : BufTy).Contents (Elt F)),
    StableHlo.nullary main_c_26 (constantI S_ 32 0#32),
    StableHlo.unary main_c_26 main_v85 (broadcastInDim S4000000 ![] bcast_S_S4000000 : (⟨S_, .i32⟩ : BufTy).Contents (Elt F) → (⟨S4000000, .i32⟩ : BufTy).Contents (Elt F)),
    StableHlo.binary main_v29 main_v85 main_v86 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 4000000#32),
    StableHlo.unary main_c_27 main_v87 (broadcastInDim S4000000 ![] bcast_S_S4000000 : (⟨S_, .i32⟩ : BufTy).Contents (Elt F) → (⟨S4000000, .i32⟩ : BufTy).Contents (Elt F)),
    StableHlo.binary main_v29 main_v87 main_v88 (addi : (⟨S4000000, .i32⟩ : BufTy).Contents (Elt F) → (⟨S4000000, .i32⟩ : BufTy).Contents (Elt F) → (⟨S4000000, .i32⟩ : BufTy).Contents (Elt F)),
    StableHlo.ternary main_v86 main_v88 main_v29 main_v89 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v89 main_v90 (broadcastInDim S4000000x1 ![0] bcast_S4000000_S4000000x1_0 : (⟨S4000000, .i32⟩ : BufTy).Contents (Elt F) → (⟨S4000000x1, .i32⟩ : BufTy).Contents (Elt F)),
    StableHlo.binary main_arg0 main_v90 main_v91 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)),
    StableHlo.nullary main_c_28 (constantI S_ 32 0#32),
    StableHlo.unary main_c_28 main_v92 (broadcastInDim S4000000 ![] bcast_S_S4000000 : (⟨S_, .i32⟩ : BufTy).Contents (Elt F) → (⟨S4000000, .i32⟩ : BufTy).Contents (Elt F)),
    StableHlo.binary main_v82 main_v92 main_v93 (cmpi .slt : (⟨S4000000, .i32⟩ : BufTy).Contents (Elt F) → (⟨S4000000, .i32⟩ : BufTy).Contents (Elt F) → (⟨S4000000, .i1⟩ : BufTy).Contents (Elt F)),
    StableHlo.nullary main_c_29 (constantI S_ 32 20000#32),
    StableHlo.unary main_c_29 main_v94 (broadcastInDim S4000000 ![] bcast_S_S4000000 : (⟨S_, .i32⟩ : BufTy).Contents (Elt F) → (⟨S4000000, .i32⟩ : BufTy).Contents (Elt F)),
    StableHlo.binary main_v82 main_v94 main_v95 (addi : (⟨S4000000, .i32⟩ : BufTy).Contents (Elt F) → (⟨S4000000, .i32⟩ : BufTy).Contents (Elt F) → (⟨S4000000, .i32⟩ : BufTy).Contents (Elt F)),
    StableHlo.ternary main_v93 main_v95 main_v82 main_v96 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_30 (constantI S_ 32 0#32),
    StableHlo.unary main_c_30 main_v97 (broadcastInDim S4000000 ![] bcast_S_S4000000 : (⟨S_, .i32⟩ : BufTy).Contents (Elt F) → (⟨S4000000, .i32⟩ : BufTy).Contents (Elt F)),
    StableHlo.binary main_v83 main_v97 main_v98 (cmpi .slt : (⟨S4000000, .i32⟩ : BufTy).Contents (Elt F) → (⟨S4000000, .i32⟩ : BufTy).Contents (Elt F) → (⟨S4000000, .i1⟩ : BufTy).Contents (Elt F)),
    StableHlo.nullary main_c_31 (constantI S_ 32 35#32),
    StableHlo.unary main_c_31 main_v99 (broadcastInDim S4000000 ![] bcast_S_S4000000 : (⟨S_, .i32⟩ : BufTy).Contents (Elt F) → (⟨S4000000, .i32⟩ : BufTy).Contents (Elt F)),
    StableHlo.binary main_v83 main_v99 main_v100 (addi : (⟨S4000000, .i32⟩ : BufTy).Contents (Elt F) → (⟨S4000000, .i32⟩ : BufTy).Contents (Elt F) → (⟨S4000000, .i32⟩ : BufTy).Contents (Elt F)),
    StableHlo.ternary main_v98 main_v100 main_v83 main_v101 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v96 main_v102 (broadcastInDim S4000000x1 ![0] bcast_S4000000_S4000000x1_0 : (⟨S4000000, .i32⟩ : BufTy).Contents (Elt F) → (⟨S4000000x1, .i32⟩ : BufTy).Contents (Elt F)),
    StableHlo.unary main_v101 main_v103 (broadcastInDim S4000000x1 ![0] bcast_S4000000_S4000000x1_0 : (⟨S4000000, .i32⟩ : BufTy).Contents (Elt F) → (⟨S4000000x1, .i32⟩ : BufTy).Contents (Elt F)),
    StableHlo.binary main_v102 main_v103 main_v104 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v84 main_v104 main_v91 main_v105 ((fun x i u => Host.scatter scatter_S20000x35x4_S4000000x2_S4000000x4_1_01_01_1 (fun _ b => b) x i u) : (⟨S20000x35x4, .f32⟩ : BufTy).Contents (Elt F) → (⟨S4000000x2, .i32⟩ : BufTy).Contents (Elt F) → (⟨S4000000x4, .f32⟩ : BufTy).Contents (Elt F) → (⟨S20000x35x4, .f32⟩ : BufTy).Contents (Elt F)),
    StableHlo.nullary main_c_32 (constantI S_ 32 0#32),
    StableHlo.unary main_c_32 main_v106 (broadcastInDim S20000 ![] bcast_S_S20000 : (⟨S_, .i32⟩ : BufTy).Contents (Elt F) → (⟨S20000, .i32⟩ : BufTy).Contents (Elt F)),
    StableHlo.unary main_v81 main_v107 ((extui 32 · natLt_1_32) : (⟨S4000000, .i1⟩ : BufTy).Contents (Elt F) → (⟨S4000000, .i32⟩ : BufTy).Contents (Elt F)),
    StableHlo.nullary main_c_33 (constantI S_ 32 0#32),
    StableHlo.unary main_c_33 main_v108 (broadcastInDim S4000000 ![] bcast_S_S4000000 : (⟨S_, .i32⟩ : BufTy).Contents (Elt F) → (⟨S4000000, .i32⟩ : BufTy).Contents (Elt F)),
    StableHlo.binary main_v82 main_v108 main_v109 (cmpi .slt : (⟨S4000000, .i32⟩ : BufTy).Contents (Elt F) → (⟨S4000000, .i32⟩ : BufTy).Contents (Elt F) → (⟨S4000000, .i1⟩ : BufTy).Contents (Elt F)),
    StableHlo.nullary main_c_34 (constantI S_ 32 20000#32),
    StableHlo.unary main_c_34 main_v110 (broadcastInDim S4000000 ![] bcast_S_S4000000 : (⟨S_, .i32⟩ : BufTy).Contents (Elt F) → (⟨S4000000, .i32⟩ : BufTy).Contents (Elt F)),
    StableHlo.binary main_v82 main_v110 main_v111 (addi : (⟨S4000000, .i32⟩ : BufTy).Contents (Elt F) → (⟨S4000000, .i32⟩ : BufTy).Contents (Elt F) → (⟨S4000000, .i32⟩ : BufTy).Contents (Elt F)),
    StableHlo.ternary main_v109 main_v111 main_v82 main_v112 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v112 main_v113 (broadcastInDim S4000000x1 ![0] bcast_S4000000_S4000000x1_0 : (⟨S4000000, .i32⟩ : BufTy).Contents (Elt F) → (⟨S4000000x1, .i32⟩ : BufTy).Contents (Elt F)),
    StableHlo.ternary main_v106 main_v113 main_v107 main_v114 ((fun x i u => Host.scatter scatter_S20000_S4000000x1_S4000000_n_0_0_1 IntOp.addi x i u) : (⟨S20000, .i32⟩ : BufTy).Contents (Elt F) → (⟨S4000000x1, .i32⟩ : BufTy).Contents (Elt F) → (⟨S4000000, .i32⟩ : BufTy).Contents (Elt F) → (⟨S20000, .i32⟩ : BufTy).Contents (Elt F)),
    StableHlo.nullary main_c_35 (constantI S_ 32 0#32),
    StableHlo.unary main_c_35 main_v115 (broadcastInDim S20000x3 ![] bcast_S_S20000x3 : (⟨S_, .i32⟩ : BufTy).Contents (Elt F) → (⟨S20000x3, .i32⟩ : BufTy).Contents (Elt F)),
    StableHlo.nullary main_c_36 (constantI S_ 32 0#32),
    StableHlo.unary main_c_36 main_v116 (broadcastInDim S4000000 ![] bcast_S_S4000000 : (⟨S_, .i32⟩ : BufTy).Contents (Elt F) → (⟨S4000000, .i32⟩ : BufTy).Contents (Elt F)),
    StableHlo.binary main_v29 main_v116 main_v117 (cmpi .slt : (⟨S4000000, .i32⟩ : BufTy).Contents (Elt F) → (⟨S4000000, .i32⟩ : BufTy).Contents (Elt F) → (⟨S4000000, .i1⟩ : BufTy).Contents (Elt F)),
    StableHlo.nullary main_c_37 (constantI S_ 32 4000000#32),
    StableHlo.unary main_c_37 main_v118 (broadcastInDim S4000000 ![] bcast_S_S4000000 : (⟨S_, .i32⟩ : BufTy).Contents (Elt F) → (⟨S4000000, .i32⟩ : BufTy).Contents (Elt F)),
    StableHlo.binary main_v29 main_v118 main_v119 (addi : (⟨S4000000, .i32⟩ : BufTy).Contents (Elt F) → (⟨S4000000, .i32⟩ : BufTy).Contents (Elt F) → (⟨S4000000, .i32⟩ : BufTy).Contents (Elt F)),
    StableHlo.ternary main_v117 main_v119 main_v29 main_v120 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v120 main_v121 (broadcastInDim S4000000x1 ![0] bcast_S4000000_S4000000x1_0 : (⟨S4000000, .i32⟩ : BufTy).Contents (Elt F) → (⟨S4000000x1, .i32⟩ : BufTy).Contents (Elt F)),
    StableHlo.binary main_v8 main_v121 main_v122 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F)),
    StableHlo.unary main_v122 main_v123 (Host.reverse [1] : (⟨S4000000x3, .i32⟩ : BufTy).Contents (Elt F) → (⟨S4000000x3, .i32⟩ : BufTy).Contents (Elt F)),
    StableHlo.nullary main_c_38 (constantI S_ 32 0#32),
    StableHlo.unary main_c_38 main_v124 (broadcastInDim S4000000 ![] bcast_S_S4000000 : (⟨S_, .i32⟩ : BufTy).Contents (Elt F) → (⟨S4000000, .i32⟩ : BufTy).Contents (Elt F)),
    StableHlo.binary main_v82 main_v124 main_v125 (cmpi .slt : (⟨S4000000, .i32⟩ : BufTy).Contents (Elt F) → (⟨S4000000, .i32⟩ : BufTy).Contents (Elt F) → (⟨S4000000, .i1⟩ : BufTy).Contents (Elt F)),
    StableHlo.nullary main_c_39 (constantI S_ 32 20000#32),
    StableHlo.unary main_c_39 main_v126 (broadcastInDim S4000000 ![] bcast_S_S4000000 : (⟨S_, .i32⟩ : BufTy).Contents (Elt F) → (⟨S4000000, .i32⟩ : BufTy).Contents (Elt F)),
    StableHlo.binary main_v82 main_v126 main_v127 (addi : (⟨S4000000, .i32⟩ : BufTy).Contents (Elt F) → (⟨S4000000, .i32⟩ : BufTy).Contents (Elt F) → (⟨S4000000, .i32⟩ : BufTy).Contents (Elt F)),
    StableHlo.ternary main_v125 main_v127 main_v82 main_v128 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v128 main_v129 (broadcastInDim S4000000x1 ![0] bcast_S4000000_S4000000x1_0 : (⟨S4000000, .i32⟩ : BufTy).Contents (Elt F) → (⟨S4000000x1, .i32⟩ : BufTy).Contents (Elt F)),
    StableHlo.ternary main_v115 main_v129 main_v123 main_v130 ((fun x i u => Host.scatter scatter_S20000x3_S4000000x1_S4000000x3_1_0_0_1 (fun _ b => b) x i u) : (⟨S20000x3, .i32⟩ : BufTy).Contents (Elt F) → (⟨S4000000x1, .i32⟩ : BufTy).Contents (Elt F) → (⟨S4000000x3, .i32⟩ : BufTy).Contents (Elt F) → (⟨S20000x3, .i32⟩ : BufTy).Contents (Elt F)),
    StableHlo.binary main_v42 main_v50 main_v131 (andi : (⟨S4000000, .i1⟩ : BufTy).Contents (Elt F) → (⟨S4000000, .i1⟩ : BufTy).Contents (Elt F) → (⟨S4000000, .i1⟩ : BufTy).Contents (Elt F)),
    StableHlo.unary main_v131 main_v132 ((extui 32 · natLt_1_32) : (⟨S4000000, .i1⟩ : BufTy).Contents (Elt F) → (⟨S4000000, .i32⟩ : BufTy).Contents (Elt F)),
    StableHlo.nullary main_c_40 (constantI S_ 32 0#32),
    StableHlo.binary main_v132 main_c_40 main_v133 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)),
    StableHlo.nullary main_c_41 (constantI S_ 32 20000#32),
    StableHlo.binary main_v133 main_c_41 main_v134 (minsi : (⟨S_, .i32⟩ : BufTy).Contents (Elt F) → (⟨S_, .i32⟩ : BufTy).Contents (Elt F) → (⟨S_, .i32⟩ : BufTy).Contents (Elt F)) ]

theorem headOps_sub : (headOps : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.unary_bufs_sub .., StableHlo.ternary_bufs_sub ..⟩

theorem tailOps_sub : (tailOps : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.binary_bufs_sub .., StableHlo.unary_bufs_sub .., StableHlo.nullary_bufs_sub .., StableHlo.binary_bufs_sub .., StableHlo.nullary_bufs_sub .., StableHlo.binary_bufs_sub ..⟩

end Cert.ReferenceIdeal.Hand

end
-- ==== Proof.RefRun.lean ====
/-
  The reference program's run. Its @main is a straight line of 198 host operations (the bodies of the functions it calls
  standing at their calls), so every weakly fair execution terminates with each buffer at the fold of those operations
  over its launch contents. The line is read in two parts: the first 39 operations turn the points into integer voxel
  coordinates and a flat voxel id; the other 159 sort, rank and scatter. No operation writes the points array.
-/
import proofs.«173120_j5892695130408_1_alg».proof.Proof.RefOps
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 16000000 in
/-- @main is that line: the three printed windows one after the other, each called function's body unfolded at its call. -/
theorem main_eq (c : Dev nD) : main (F := F) c = seq (headOps ++ tailOps) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (headOps ++ tailOps : List (HloOp τ sig (Elt F))).Forall fun op => op.bufs ⊆ tcRefs τ sig :=
  List.forall_iff_forall_mem.mpr fun op h => (List.mem_append.mp h).elim
    (List.forall_iff_forall_mem.mp headOps_sub op) (List.forall_iff_forall_mem.mp tailOps_sub op)

theorem headOps_fresh : (headOps : List (HloOp τ sig (Elt F))).Forall fun op => op.fresh = ∅ := by
  simp only [List.Forall]; repeat' constructor
theorem tailOps_fresh : (tailOps : List (HloOp τ sig (Elt F))).Forall fun op => op.fresh = ∅ := by
  simp only [List.Forall]; repeat' constructor

theorem ops_fresh : ∀ op ∈ (headOps ++ tailOps : List (HloOp τ sig (Elt F))), op.fresh = ∅ :=
  fun op h => (List.mem_append.mp h).elim
    (List.forall_iff_forall_mem.mp headOps_fresh op) (List.forall_iff_forall_mem.mp tailOps_fresh op)

/-- Every weakly fair execution of the reference terminates, each buffer ending at the second part's fold over the
    first part's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after tailOps (after headOps (launchContents m c)) (Proc.devRef .tc b) :=
  (θ_run defs _ _).mono (fun _ h c b => (h c b).trans (by rw [StableHlo.after_append]))
    (run_seq scopedRefs_eq scopedSems_eq defs main (fun _ => headOps ++ tailOps) main_eq (fun _ => ops_sub) m ρ
      (fun _ => ops_fresh))

/-- No operation of the first part writes the points array, -/
theorem headOps_keep_arg0 : (headOps : List (HloOp τ sig (Elt F))).Forall fun op => Proc.devRef .tc main_arg0 ∉ op.writes := by
  simp only [headOps, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- nor does one of the second part. -/
theorem tailOps_keep_arg0 : (tailOps : List (HloOp τ sig (Elt F))).Forall fun op => Proc.devRef .tc main_arg0 ∉ op.writes := by
  simp only [tailOps, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- So the points array reads the same after either part as before it. -/
theorem head_arg0 (V : Valuation τ sig (Elt F)) : after headOps V (Proc.devRef .tc main_arg0) = V (Proc.devRef .tc main_arg0) :=
  after_of_forall_not_mem _ _ (List.forall_iff_forall_mem.mp headOps_keep_arg0)
theorem tail_arg0 (V : Valuation τ sig (Elt F)) : after tailOps V (Proc.devRef .tc main_arg0) = V (Proc.devRef .tc main_arg0) :=
  after_of_forall_not_mem _ _ (List.forall_iff_forall_mem.mp tailOps_keep_arg0)

end Cert.ReferenceIdeal.Hand

end
-- ==== Proof.Spec.lean ====
/-
  What the bucketing computes, point by point, over the extended reals.

  A point's coordinate `x` on an axis with lower corner `lo` and voxel size `sz` falls in voxel `⌊(x - lo) / sz⌋`, read
  as a 32-bit integer. A point is in range when its three voxel coordinates lie in `[0, 1408) × [0, 1600) × [0, 40)`;
  its flat voxel id is then `(cx · 1600 + cy) · 40 + cz` (in 32-bit arithmetic), and the sentinel `90112000 = 1408 · 1600 · 40`
  otherwise. The lower corners and sizes are the float words the two programs print, the same words in both.
-/
import Idealize.ShloMosaic.PureOps.Ideal
import Idealize.ShloMosaic.Lib.ValueIdx

noncomputable section

namespace Cert.Spec

open Idealize.ShloMosaic Idealize.ShloMosaic.ValueIdx

/-- The points array: 4000000 points, four floats each (x, y, z and a fourth the bucketing does not read). -/
abbrev SP : Shape := ⟨2, ![4000000, 4]⟩
/-- One integer per point. -/
abbrev SN : Shape := ⟨1, ![4000000]⟩
/-- Three integers per point. -/
abbrev SN3 : Shape := ⟨2, ![4000000, 3]⟩

/-- The voxel coordinate of `x` on an axis with lower corner word `lo` and voxel size word `sz`. -/
def coord (lo sz : BitVec 32) (x : EReal) : BitVec 32 :=
  FloatOps.fptosi (F := Ideal) 32
    (FloatOps.floor (FloatOps.divf (FloatOps.subf x (Scalar.ofBits (F := Ideal) .f32 lo)) (Scalar.ofBits (F := Ideal) .f32 sz)))

/-- Point `n`'s voxel coordinate along x: lower corner 0, size f32(0.05). -/
def cx (p : SP.Idx → EReal) (n : Fin 4000000) : BitVec 32 := coord 0x00000000#32 0x3D4CCCCD#32 (p (ix2 n (0 : Fin 4)))
/-- along y: lower corner -40, size f32(0.05). -/
def cy (p : SP.Idx → EReal) (n : Fin 4000000) : BitVec 32 := coord 0xC2200000#32 0x3D4CCCCD#32 (p (ix2 n (1 : Fin 4)))
/-- along z: lower corner -3, size f32(0.1). -/
def cz (p : SP.Idx → EReal) (n : Fin 4000000) : BitVec 32 := coord 0xC0400000#32 0x3DCCCCCD#32 (p (ix2 n (2 : Fin 4)))

/-- Point `n` lies in the voxel grid: the six bounds, conjoined left to right. -/
def valid (p : SP.Idx → EReal) (n : Fin 4000000) : BitVec 1 :=
  IntOp.andi (IntOp.andi (IntOp.andi (IntOp.andi (IntOp.andi
    (IntOp.cmpi .sge (cx p n) 0#32) (IntOp.cmpi .slt (cx p n) 1408#32))
    (IntOp.cmpi .sge (cy p n) 0#32)) (IntOp.cmpi .slt (cy p n) 1600#32))
    (IntOp.cmpi .sge (cz p n) 0#32)) (IntOp.cmpi .slt (cz p n) 40#32)

/-- Point `n`'s flat voxel id, or the sentinel when it is out of range. -/
def flat (p : SP.Idx → EReal) (n : Fin 4000000) : BitVec 32 :=
  Scalar.select (valid p n)
    (IntOp.addi (IntOp.muli (IntOp.addi (IntOp.muli (cx p n) 1600#32) (cy p n)) 40#32) (cz p n)) 90112000#32

/-- The flat ids as an array. -/
def flatArr (p : SP.Idx → EReal) : SN.Idx → BitVec 32 := fun i => flat p (i 0)
/-- One coordinate as an array. -/
def czArr (p : SP.Idx → EReal) : SN.Idx → BitVec 32 := fun i => cz p (i 0)
def cyArr (p : SP.Idx → EReal) : SN.Idx → BitVec 32 := fun i => cy p (i 0)
def cxArr (p : SP.Idx → EReal) : SN.Idx → BitVec 32 := fun i => cx p (i 0)

/-- The three coordinates per point in the order x, y, z. -/
def cArr (p : SP.Idx → EReal) : SN3.Idx → BitVec 32 := fun i =>
  match i 1 with
  | ⟨0, _⟩ => cx p (i 0)
  | ⟨1, _⟩ => cy p (i 0)
  | ⟨_ + 2, _⟩ => cz p (i 0)

/-- The bucketing's result array: per point its z, y, x voxel coordinates and its flat id. -/
def outArr (p : SP.Idx → EReal) : SP.Idx → BitVec 32 := fun i =>
  match i 1 with
  | ⟨0, _⟩ => cz p (i 0)
  | ⟨1, _⟩ => cy p (i 0)
  | ⟨2, _⟩ => cx p (i 0)
  | ⟨_ + 3, _⟩ => flat p (i 0)

end Cert.Spec

end
-- ==== Proof.KValue.lean ====
/-
  The bucketing's result array as ONE function of the points array.

  Grid point t stages rows 250000 t … 250000 t + 249999 of the points and writes back the same rows of the result; what
  it writes in row r is a function of the points' row r alone (three voxel coordinates and the flat id). The sixteen
  blocks tile the 4000000 rows, so after the region the whole result array is that function of the whole points array.
-/
import proofs.«173120_j5892695130408_1_alg».proof.Proof.FrameKI
import proofs.«173120_j5892695130408_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.ArrayValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Columns of a block -/

/-- Column `k` of a 250000 × 4 block, cut out as a 250000 × 1 slab and flattened, reads at row `r` the block at `(r, k)`. -/
theorem column_apply {α : Type} (x : S250000x4.Idx → α) (o : Nat) (h1 : S250000x4.Slices ![0, o] S250000x1)
    (h2 : S250000x1.ShapeCasts S250000) (r : Fin 250000) (k : Fin 4) (hk : k.val = o) :
    shapeCast S250000 (extractStridedSlice S250000x1 ![0, o] x h1) h2 (ix1 r) = x (ix2 r k) := by
  rw [shapeCast_apply _ h2 (ix1 r) (ix2 r (0 : Fin 1)) (by
    rw [Shape.rowMajor_val_two, Shape.rowMajor_val_one]
    show r.val * 1 + 0 = r.val
    omega)]
  exact slice2_axis1_apply o x h1 r 0 k (by rw [hk]; rfl)

/-- A vector of 250000 entries stood up as a 250000 × 1 slab reads at `(r, u)` the vector at `r`. -/
theorem slab_apply {α : Type} (v : S250000.Idx → α) (h : S250000.ShapeCasts S250000x1) (r : Fin 250000) (u : Fin 1) :
    shapeCast S250000x1 v h (ix2 r u) = v (ix1 r) :=
  shapeCast_apply v h _ _ (by
    have hu : u.val = 0 := by omega
    rw [Shape.rowMajor_val_two, Shape.rowMajor_val_one]
    show r.val = r.val * 1 + u.val
    omega)

/-- Four 250000 × 1 slabs set side by side along axis 1 read at `(r, k)` the `k`-th slab at row `r`. -/
theorem beside_apply0 {α : Type} (v0 v1 v2 v3 : S250000x1.Idx → α)
    (h : Shape.Concatenates [S250000x1, S250000x1, S250000x1, S250000x1] S250000x4 1) (r : Fin 250000) :
    concatenate S250000x4 1 [⟨S250000x1, v0⟩, ⟨S250000x1, v1⟩, ⟨S250000x1, v2⟩, ⟨S250000x1, v3⟩] h (ix2 r (0 : Fin 4))
      = v0 (ix2 r (0 : Fin 1)) :=
  concatenate_apply_piece (1 : Fin S250000x4.rank) [⟨S250000x1, v0⟩, ⟨S250000x1, v1⟩, ⟨S250000x1, v2⟩, ⟨S250000x1, v3⟩] h (ix2 r (0 : Fin 4)) 0 (by simp) S250000x1 v0 rfl rfl 0 (by rfl)
    (ix2 r (0 : Fin 1)) (fun b hb => by match b with | ⟨0, _⟩ => rfl | ⟨1, _⟩ => exact absurd rfl hb) (by rfl)

theorem beside_apply1 {α : Type} (v0 v1 v2 v3 : S250000x1.Idx → α)
    (h : Shape.Concatenates [S250000x1, S250000x1, S250000x1, S250000x1] S250000x4 1) (r : Fin 250000) :
    concatenate S250000x4 1 [⟨S250000x1, v0⟩, ⟨S250000x1, v1⟩, ⟨S250000x1, v2⟩, ⟨S250000x1, v3⟩] h (ix2 r (1 : Fin 4))
      = v1 (ix2 r (0 : Fin 1)) :=
  concatenate_apply_piece (1 : Fin S250000x4.rank) [⟨S250000x1, v0⟩, ⟨S250000x1, v1⟩, ⟨S250000x1, v2⟩, ⟨S250000x1, v3⟩] h (ix2 r (1 : Fin 4)) 1 (by simp) S250000x1 v1 rfl rfl 1 (by rfl)
    (ix2 r (0 : Fin 1)) (fun b hb => by match b with | ⟨0, _⟩ => rfl | ⟨1, _⟩ => exact absurd rfl hb) (by rfl)

theorem beside_apply2 {α : Type} (v0 v1 v2 v3 : S250000x1.Idx → α)
    (h : Shape.Concatenates [S250000x1, S250000x1, S250000x1, S250000x1] S250000x4 1) (r : Fin 250000) :
    concatenate S250000x4 1 [⟨S250000x1, v0⟩, ⟨S250000x1, v1⟩, ⟨S250000x1, v2⟩, ⟨S250000x1, v3⟩] h (ix2 r (2 : Fin 4))
      = v2 (ix2 r (0 : Fin 1)) :=
  concatenate_apply_piece (1 : Fin S250000x4.rank) [⟨S250000x1, v0⟩, ⟨S250000x1, v1⟩, ⟨S250000x1, v2⟩, ⟨S250000x1, v3⟩] h (ix2 r (2 : Fin 4)) 2 (by simp) S250000x1 v2 rfl rfl 2 (by rfl)
    (ix2 r (0 : Fin 1)) (fun b hb => by match b with | ⟨0, _⟩ => rfl | ⟨1, _⟩ => exact absurd rfl hb) (by rfl)

theorem beside_apply3 {α : Type} (v0 v1 v2 v3 : S250000x1.Idx → α)
    (h : Shape.Concatenates [S250000x1, S250000x1, S250000x1, S250000x1] S250000x4 1) (r : Fin 250000) :
    concatenate S250000x4 1 [⟨S250000x1, v0⟩, ⟨S250000x1, v1⟩, ⟨S250000x1, v2⟩, ⟨S250000x1, v3⟩] h (ix2 r (3 : Fin 4))
      = v3 (ix2 r (0 : Fin 1)) :=
  concatenate_apply_piece (1 : Fin S250000x4.rank) [⟨S250000x1, v0⟩, ⟨S250000x1, v1⟩, ⟨S250000x1, v2⟩, ⟨S250000x1, v3⟩] h (ix2 r (3 : Fin 4)) 3 (by simp) S250000x1 v3 rfl rfl 3 (by rfl)
    (ix2 r (0 : Fin 1)) (fun b hb => by match b with | ⟨0, _⟩ => rfl | ⟨1, _⟩ => exact absurd rfl hb) (by rfl)

/-! ## The body's values at a point of the block -/

/-- The first coordinate vector at row `r`: the voxel coordinate of the block's `(r, 0)` along x. -/
theorem xcoord_apply (x0 : Vec Ideal S250000x4 .f32) (r : Fin 250000) :
    k0_pay2 (F := Ideal) x0 (ix1 r) = Cert.Spec.coord 0x00000000#32 0x3D4CCCCD#32 (x0 (ix2 r (0 : Fin 4))) := by
  unfold k0_pay2 Cert.Spec.coord
  show FloatOps.fptosi (F := Ideal) 32 (FloatOps.floor (FloatOps.divf (FloatOps.subf
      (shapeCast S250000 (extractStridedSlice S250000x1 ![0, 0] x0 _) _ (ix1 r)) _) _)) = _
  rw [column_apply x0 0 _ _ r 0 rfl]
  rfl

/-- The second at row `r`: the voxel coordinate of the block's `(r, 1)` along y. -/
theorem ycoord_apply (x0 : Vec Ideal S250000x4 .f32) (r : Fin 250000) :
    k0_pay3 (F := Ideal) x0 (ix1 r) = Cert.Spec.coord 0xC2200000#32 0x3D4CCCCD#32 (x0 (ix2 r (1 : Fin 4))) := by
  unfold k0_pay3 Cert.Spec.coord
  show FloatOps.fptosi (F := Ideal) 32 (FloatOps.floor (FloatOps.divf (FloatOps.subf
      (shapeCast S250000 (extractStridedSlice S250000x1 ![0, 1] x0 _) _ (ix1 r)) _) _)) = _
  rw [column_apply x0 1 _ _ r 1 rfl]
  rfl

/-- The third at row `r`: the voxel coordinate of the block's `(r, 2)` along z. -/
theorem zcoord_apply (x0 : Vec Ideal S250000x4 .f32) (r : Fin 250000) :
    k0_pay4 (F := Ideal) x0 (ix1 r) = Cert.Spec.coord 0xC0400000#32 0x3DCCCCCD#32 (x0 (ix2 r (2 : Fin 4))) := by
  unfold k0_pay4 Cert.Spec.coord
  show FloatOps.fptosi (F := Ideal) 32 (FloatOps.floor (FloatOps.divf (FloatOps.subf
      (shapeCast S250000 (extractStridedSlice S250000x1 ![0, 2] x0 _) _ (ix1 r)) _) _)) = _
  rw [column_apply x0 2 _ _ r 2 rfl]
  rfl

/-- The range test at row `r`: the six bounds on the three coordinates, conjoined left to right. -/
theorem inrange_apply (x0 : Vec Ideal S250000x4 .f32) (r : Fin 250000) :
    k0_pay5 (F := Ideal) x0 (ix1 r)
      = IntOp.andi (IntOp.andi (IntOp.andi (IntOp.andi (IntOp.andi
          (IntOp.cmpi .sge (k0_pay2 (F := Ideal) x0 (ix1 r)) 0#32) (IntOp.cmpi .slt (k0_pay2 (F := Ideal) x0 (ix1 r)) 1408#32))
          (IntOp.cmpi .sge (k0_pay3 (F := Ideal) x0 (ix1 r)) 0#32)) (IntOp.cmpi .slt (k0_pay3 (F := Ideal) x0 (ix1 r)) 1600#32))
          (IntOp.cmpi .sge (k0_pay4 (F := Ideal) x0 (ix1 r)) 0#32)) (IntOp.cmpi .slt (k0_pay4 (F := Ideal) x0 (ix1 r)) 40#32) := rfl

/-- The x coordinate's stride at row `r`. -/
theorem xstride_apply (x0 : Vec Ideal S250000x4 .f32) (r : Fin 250000) :
    k0_pay6 (F := Ideal) x0 (ix1 r) = IntOp.muli (k0_pay2 (F := Ideal) x0 (ix1 r)) 1600#32 := rfl

/-- The flat id the body forms at row `r`, from the vectors it is handed. -/
theorem flatid_apply (v18 v24 : IVec S250000 32) (v41 : IVec S250000 1) (v43 : IVec S250000 32) (r : Fin 250000) :
    select v41 (addi (muli (addi v43 v18) (broadcast S250000 40#32)) v24) (broadcast S250000 90112000#32) (ix1 r)
      = Scalar.select (v41 (ix1 r)) (IntOp.addi (IntOp.muli (IntOp.addi (v43 (ix1 r)) (v18 (ix1 r))) 40#32) (v24 (ix1 r))) 90112000#32 := rfl

/-- What the body stores in row `r` of its block, when that row of the input block is row `n` of the points:
    the point's z, y, x voxel coordinates and its flat id. -/
theorem stored_row (p : Cert.Spec.SP.Idx → EReal) (x0 : Vec Ideal S250000x4 .f32) (r : Fin 250000) (n : Fin 4000000)
    (hx : ∀ k : Fin 4, x0 (ix2 r k) = p (ix2 n k)) :
    k0_pay1 (k0_pay2 (F := Ideal) x0) (k0_pay3 (F := Ideal) x0) (k0_pay4 (F := Ideal) x0) (k0_pay5 (F := Ideal) x0) (k0_pay6 (F := Ideal) x0) (ix2 r (0 : Fin 4)) = Cert.Spec.cz p n
    ∧ k0_pay1 (k0_pay2 (F := Ideal) x0) (k0_pay3 (F := Ideal) x0) (k0_pay4 (F := Ideal) x0) (k0_pay5 (F := Ideal) x0) (k0_pay6 (F := Ideal) x0) (ix2 r (1 : Fin 4)) = Cert.Spec.cy p n
    ∧ k0_pay1 (k0_pay2 (F := Ideal) x0) (k0_pay3 (F := Ideal) x0) (k0_pay4 (F := Ideal) x0) (k0_pay5 (F := Ideal) x0) (k0_pay6 (F := Ideal) x0) (ix2 r (2 : Fin 4)) = Cert.Spec.cx p n
    ∧ k0_pay1 (k0_pay2 (F := Ideal) x0) (k0_pay3 (F := Ideal) x0) (k0_pay4 (F := Ideal) x0) (k0_pay5 (F := Ideal) x0) (k0_pay6 (F := Ideal) x0) (ix2 r (3 : Fin 4)) = Cert.Spec.flat p n := by
  have ex : k0_pay2 (F := Ideal) x0 (ix1 r) = Cert.Spec.cx p n := by rw [xcoord_apply, hx]; rfl
  have ey : k0_pay3 (F := Ideal) x0 (ix1 r) = Cert.Spec.cy p n := by rw [ycoord_apply, hx]; rfl
  have ez : k0_pay4 (F := Ideal) x0 (ix1 r) = Cert.Spec.cz p n := by rw [zcoord_apply, hx]; rfl
  refine ⟨?_, ?_, ?_, ?_⟩
  · refine (beside_apply0 _ _ _ _ Facts₀.concatenates_S250000x1_S250000x1_S250000x1_S250000x1_S250000x4_d1 r).trans ?_
    exact (slab_apply _ Facts₀.shapeCasts_S250000_S250000x1 r 0).trans ez
  · refine (beside_apply1 _ _ _ _ Facts₀.concatenates_S250000x1_S250000x1_S250000x1_S250000x1_S250000x4_d1 r).trans ?_
    exact (slab_apply _ Facts₀.shapeCasts_S250000_S250000x1 r 0).trans ey
  · refine (beside_apply2 _ _ _ _ Facts₀.concatenates_S250000x1_S250000x1_S250000x1_S250000x1_S250000x4_d1 r).trans ?_
    exact (slab_apply _ Facts₀.shapeCasts_S250000_S250000x1 r 0).trans ex
  · refine (beside_apply3 _ _ _ _ Facts₀.concatenates_S250000x1_S250000x1_S250000x1_S250000x1_S250000x4_d1 r).trans ?_
    refine (slab_apply _ Facts₀.shapeCasts_S250000_S250000x1 r 0).trans ?_
    rw [flatid_apply, inrange_apply, xstride_apply, ex, ey, ez]
    rfl

/-- The same at an index `j` of the block and an index `i` of the array on the same column. -/
theorem stored_eq_spec (p : Cert.Spec.SP.Idx → EReal) (x0 : Vec Ideal S250000x4 .f32) (j : S250000x4.Idx) (i : S4000000x4.Idx)
    (hcol : i 1 = j 1) (hx : ∀ k : Fin 4, x0 (ix2 (j 0) k) = p (ix2 (i 0) k)) :
    k0_pay1 (k0_pay2 (F := Ideal) x0) (k0_pay3 (F := Ideal) x0) (k0_pay4 (F := Ideal) x0) (k0_pay5 (F := Ideal) x0) (k0_pay6 (F := Ideal) x0) j
      = Cert.Spec.outArr p i := by
  obtain ⟨r, q, rfl⟩ : ∃ (r : Fin 250000) (q : Fin 4), j = ix2 r q := ⟨j 0, j 1, eq_ix2 j⟩
  obtain ⟨n, q', rfl⟩ : ∃ (n : Fin 4000000) (q' : Fin 4), i = ix2 n q' := ⟨i 0, i 1, eq_ix2 i⟩
  have hq : q' = q := hcol
  subst hq
  obtain ⟨h0, h1, h2, h3⟩ := stored_row p x0 r n hx
  match q' with
  | ⟨0, _⟩ => exact h0
  | ⟨1, _⟩ => exact h1
  | ⟨2, _⟩ => exact h2
  | ⟨3, _⟩ => exact h3

/-! ## From the sixteen blocks to the array -/

theorem zero_offsets : (![0, 0] : Fin 2 → Nat) = fun _ => 0 := funext fun a => by fin_cases a <;> rfl

/-- The index maps over the grid: at point `t` both windows' blocks are block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the specification's result array of the points as launched. -/
theorem written_back (c : Dev nD) (t : Fin cfg0.N) :
    (dats (F := Ideal) m 0 c).flushed 1 t
      = ((cfg0.win 1).blk t).view.read (Elt Ideal) (Cert.Spec.outArr (m ((c : Thread nD τ).loc main_arg0))) := by
  show (cfg0.win 1).cut (grid0.coords t) ((dats (F := Ideal) m 0 c).after 1 t) = _
  rw [after0_1]
  unfold blockOut
  rw [View.canon_unit_zero zero_offsets]
  simp only [View.ld_unit_zero (S := S250000x4) zero_offsets]
  obtain ⟨e0, e1, e2, e3⟩ := block_index t
  funext j
  show k0_pay1 (k0_pay2 (F := Ideal) (iblk m c 0 t)) (k0_pay3 (F := Ideal) (iblk m c 0 t)) (k0_pay4 (F := Ideal) (iblk m c 0 t))
        (k0_pay5 (F := Ideal) (iblk m c 0 t)) (k0_pay6 (F := Ideal) (iblk m c 0 t)) j
      = Cert.Spec.outArr (m ((c : Thread nD τ).loc main_arg0)) (((cfg0.win 1).blk t).view.emb j)
  refine stored_eq_spec (m ((c : Thread nD τ).loc main_arg0)) (iblk m c 0 t) j (((cfg0.win 1).blk t).view.emb j) ?_ ?_
  · apply Fin.ext
    show win0_1.index t (1 : Fin 2) * 4 + 1 * (j 1).val = (j 1).val
    rw [e3]; omega
  · intro k
    show V m c main_arg0 (((cfg0.win 0).blk t).view.emb (ix2 (j 0) k))
        = V m c main_arg0 (ix2 ((((cfg0.win 1).blk t).view.emb j) 0) k)
    refine congrArg (V m c main_arg0) (funext fun a => Fin.ext ?_)
    match a with
    | ⟨0, _⟩ =>
      show win0_0.index t (0 : Fin 2) * 250000 + 1 * (j 0).val = win0_1.index t (0 : Fin 2) * 250000 + 1 * (j 0).val
      rw [e0, e2]
    | ⟨1, _⟩ =>
      show win0_0.index t (1 : Fin 2) * 4 + 1 * k.val = k.val
      rw [e1]; omega

/-- An index of the array is in point `t`'s block iff each coordinate is in the block's range on its axis. -/
theorem mem_block (t : Fin cfg0.N) (i : S4000000x4.Idx) :
    i ∈ ((cfg0.win 1).blk t).view.set ↔ ∀ a : Fin 2, win0_1.index t a * S250000x4.size a ≤ (i a).val
      ∧ (i a).val < win0_1.index t a * S250000x4.size a + S250000x4.size a := by
  show i ∈ ((View.whole main_v0).slice (win0_1.rect t)).set ↔ _
  rw [View.set_slice_whole, Rect.mem_set_unit]
  exact Iff.rfl

/-- The sixteen blocks cover the array: row `n` lies in the block of point `n / 250000`. -/
theorem covered (i : S4000000x4.Idx) :
    ∃ t : Fin cfg0.N, (cfg0.win 1).flush t = true ∧ i ∈ ((cfg0.win 1).blk t).view.set := by
  have hi0 : (i 0).val < 4000000 := (i 0).isLt
  have hi1 : (i 1).val < 4 := (i 1).isLt
  have hN : cfg0.N = 16 := N_0
  have hlt : (i 0).val / 250000 < cfg0.N := by rw [hN]; omega
  obtain ⟨t, ht⟩ : ∃ t : Fin cfg0.N, t.val = (i 0).val / 250000 := ⟨⟨_, hlt⟩, rfl⟩
  obtain ⟨-, -, e2, e3⟩ := block_index t
  refine ⟨t, flush0_1 t, ?_⟩
  rw [mem_block]
  intro a
  match a with
  | ⟨0, _⟩ =>
    show win0_1.index t (0 : Fin 2) * 250000 ≤ (i 0).val ∧ (i 0).val < win0_1.index t (0 : Fin 2) * 250000 + 250000
    rw [e2, ht]; omega
  | ⟨1, _⟩ =>
    show win0_1.index t (1 : Fin 2) * 4 ≤ (i 1).val ∧ (i 1).val < win0_1.index t (1 : Fin 2) * 4 + 4
    rw [e3]; omega

/-- After the region the result array holds, per point, its z, y, x voxel coordinates and its flat id. -/
theorem out_array (c : Dev nD) :
    (dats (F := Ideal) m 0 c).arrAt 1 cfg0.N = Cert.Spec.outArr (m ((c : Thread nD τ).loc main_arg0)) :=
  (dats (F := Ideal) m 0 c).arrAt_eq_of_cover 1 (Cert.Spec.outArr (m ((c : Thread nD τ).loc main_arg0)))
    (fun t _ => written_back m c t) covered

end Cert.KernelIdeal.ArrayValue

end
-- ==== Proof.KHead.lean ====
/-
  The first eight host lines after the region cut the result array into its four columns: z, y and x voxel coordinates
  and the flat id, each as an array of 4000000 integers.
-/
import proofs.«173120_j5892695130408_1_alg».proof.Proof.Gen.KernelIdeal.Launch
import proofs.«173120_j5892695130408_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem Idealize.ShloMosaic.StableHlo

/-- Cutting column `c` out of a four-column array and flattening the one-column result: entry `n` is the array at
    `(n, c)`. The flattening keeps the row-major position, `n * 1 + 0 = n`; the cut shifts the column by `c`. -/
theorem col_apply {α : Type} (x : S4000000x4.Idx → α) (c : Nat) (hc : c < 4) (hs : S4000000x4.Slices ![0, c] S4000000x1)
    (n : Fin 4000000) :
    shapeCast S4000000 (extractStridedSlice S4000000x1 ![0, c] x hs) shapeCasts_S4000000x1_S4000000 (ix1 n)
      = x (ix2 n (⟨c, hc⟩ : Fin 4)) := by
  rw [shapeCast_apply (extractStridedSlice S4000000x1 ![0, c] x hs) shapeCasts_S4000000x1_S4000000 (ix1 n) (ix2 n (0 : Fin 1)) ?_]
  · refine extractStridedSlice_apply ![0, c] x hs (ix2 n (0 : Fin 1)) (ix2 n (⟨c, hc⟩ : Fin 4)) (fun a => ?_)
    match a with
    | ⟨0, _⟩ => simp
    | ⟨1, _⟩ => simp
  · rw [Shape.rowMajor_val_two, Shape.rowMajor_val_one]
    simp

/-- Column 3 of the result array is the flat ids. -/
theorem head_flat (W : Valuation τ sig (Elt Ideal)) (p : Cert.Spec.SP.Idx → EReal)
    (h : W (Proc.devRef .tc main_v0) = Cert.Spec.outArr p) :
    after (hostOps1 (F := Ideal)) W (Proc.devRef .tc main_v8) = Cert.Spec.flatArr p := by
  simp only [hostOps1]
  after_results_simp
  rw [h]
  funext i
  obtain ⟨n, rfl⟩ : ∃ n, i = ix1 n := ⟨i 0, eq_ix1 i⟩
  -- the result array at (n, 3) is the flat id of point n
  exact col_apply (Cert.Spec.outArr p) 3 (by decide) slices_S4000000x4_S4000000x1_0_3 n
/-- Column 0 is the z coordinates, -/
theorem head_cz (W : Valuation τ sig (Elt Ideal)) (p : Cert.Spec.SP.Idx → EReal)
    (h : W (Proc.devRef .tc main_v0) = Cert.Spec.outArr p) :
    after (hostOps1 (F := Ideal)) W (Proc.devRef .tc main_v2) = Cert.Spec.czArr p := by
  simp only [hostOps1]
  after_results_simp
  rw [h]
  funext i
  obtain ⟨n, rfl⟩ : ∃ n, i = ix1 n := ⟨i 0, eq_ix1 i⟩
  exact col_apply (Cert.Spec.outArr p) 0 (by decide) slices_S4000000x4_S4000000x1_0_0 n
/-- column 1 the y coordinates, -/
theorem head_cy (W : Valuation τ sig (Elt Ideal)) (p : Cert.Spec.SP.Idx → EReal)
    (h : W (Proc.devRef .tc main_v0) = Cert.Spec.outArr p) :
    after (hostOps1 (F := Ideal)) W (Proc.devRef .tc main_v4) = Cert.Spec.cyArr p := by
  simp only [hostOps1]
  after_results_simp
  rw [h]
  funext i
  obtain ⟨n, rfl⟩ : ∃ n, i = ix1 n := ⟨i 0, eq_ix1 i⟩
  exact col_apply (Cert.Spec.outArr p) 1 (by decide) slices_S4000000x4_S4000000x1_0_1 n
/-- column 2 the x coordinates. -/
theorem head_cx (W : Valuation τ sig (Elt Ideal)) (p : Cert.Spec.SP.Idx → EReal)
    (h : W (Proc.devRef .tc main_v0) = Cert.Spec.outArr p) :
    after (hostOps1 (F := Ideal)) W (Proc.devRef .tc main_v6) = Cert.Spec.cxArr p := by
  simp only [hostOps1]
  after_results_simp
  rw [h]
  funext i
  obtain ⟨n, rfl⟩ : ∃ n, i = ix1 n := ⟨i 0, eq_ix1 i⟩
  exact col_apply (Cert.Spec.outArr p) 2 (by decide) slices_S4000000x4_S4000000x1_0_2 n

/-- None of the eight lines writes the points array: each writes its own result, `main_v1` … `main_v8`. -/
theorem hostOps1_keep_arg0 : (hostOps1 (F := Ideal)).Forall fun op => Proc.devRef .tc main_arg0 ∉ op.writes := by
  simp only [hostOps1, List.Forall, StableHlo.unary_writes, StableHlo.reshape_writes, Finset.mem_singleton]
  repeat' apply And.intro
  all_goals exact StableHlo.devRef_ne_of_ne (by decide)
/-- The eight lines leave the points array alone. -/
theorem head_arg0 (W : Valuation τ sig (Elt Ideal)) :
    after (hostOps1 (F := Ideal)) W (Proc.devRef .tc main_arg0) = W (Proc.devRef .tc main_arg0) :=
  after_of_forall_not_mem _ _ (List.forall_iff_forall_mem.mp hostOps1_keep_arg0)

end Cert.KernelIdeal.Head

end
-- ==== Proof.RHead.lean ====
/-
  The reference's first 39 host lines: from the points to the three voxel coordinates per point (x, y, z, one array of
  4000000 × 3 integers) and the flat id per point. The range test is a conjunction over the three axes folded by a
  reduction; conjunction being associative and commutative on one-bit words it is the kernel's left-to-right chain.
-/
import proofs.«173120_j5892695130408_1_alg».proof.Proof.RefOps
import proofs.«173120_j5892695130408_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.ReduceAll

set_option maxRecDepth 16384

noncomputable section

namespace Cert.ReferenceIdeal.Head

open Cert.ReferenceIdeal Cert.ReferenceIdeal.Gen
open Idealize.ShloMosaic Idealize.ShloMosaic.TcCoe Idealize.ShloMosaic.ValueIdx Idealize.SL.Sem Idealize.ShloMosaic.StableHlo

section Reads
variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[b]` set as the one row of a `[1, b]` matrix reads, at `(u, c)`, the vector at `c`. -/
theorem bcast_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x _ _ fun ax => ?_
  match ax with
  | ⟨0, _⟩ =>
    show c.val = if b = 1 then 0 else c.val
    split
    · have := c.isLt; omega
    · rfl

/-- A one-row matrix `[1, b]` repeated down `a` rows reads, at `(p, c)`, the row at `c`. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x _ _ fun ax => ?_
  match ax with
  | ⟨0, _⟩ => rfl
  | ⟨1, _⟩ =>
    show c.val = if b = 1 then 0 else c.val
    split
    · have := c.isLt; omega
    · rfl

/-- A scalar broadcast to any shape reads, everywhere, the scalar's one element. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun a => a.elim0

/-- The row-major position of a length-3 vector's index is its coordinate. -/
theorem rowMajor_ix1_3 (k : Fin 3) : S3.rowMajor (ix1 k) = k :=
  Fin.ext (by rw [Shape.rowMajor_val_one])

/-- A table of three entries, one per axis, broadcast first to one row and then down the 4000000 points, reads at
    `(n, k)` entry `k`. -/
theorem axisTable_apply (f : Fin 3 → α) (n : Fin 4000000) (k : Fin 3) :
    broadcastInDim S4000000x3 ![0, 1] bcast_S1x3_S4000000x3_0_1
      (broadcastInDim S1x3 ![1] bcast_S3_S1x3_1 fun i => f (S3.rowMajor i)) (ix2 n k) = f k := by
  rw [bcast_1b_ab_apply, bcast_b_1b_apply, rowMajor_ix1_3]

end Reads

/-- The reference's coordinate array as a term over the points. -/
def cTerm (p : Spec.SP.Idx → EReal) : IVec S4000000x3 32 :=
  fptosi 32
      (Host.floor
        (Host.divf
          (subf (extractStridedSlice S4000000x3 ![0, 0] p slices_S4000000x4_S4000000x3_0_0)
            (broadcastInDim S4000000x3 ![0, 1] bcast_S1x3_S4000000x3_0_1
              (broadcastInDim S1x3 ![1] bcast_S3_S1x3_1 fun i => FloatOps.ofBits (F := Ideal) FTy.f32 (lit1 (S3.rowMajor i)))))
          (broadcastInDim S4000000x3 ![0, 1] bcast_S1x3_S4000000x3_0_1
            (broadcastInDim S1x3 ![1] bcast_S3_S1x3_1 fun i => FloatOps.ofBits (F := Ideal) FTy.f32 (lit0 (S3.rowMajor i))))))

/-- At point `n` and axis `k` the term is the specification's coordinate of that axis. -/
theorem cTerm_apply (p : Spec.SP.Idx → EReal) (n : Fin 4000000) (k : Fin 3) :
    cTerm p (ix2 n k) = Spec.cArr p (ix2 n k) := by
  show FloatOps.fptosi (F := Ideal) 32 (FloatOps.floor (FloatOps.divf
      (FloatOps.subf (extractStridedSlice S4000000x3 ![0, 0] p slices_S4000000x4_S4000000x3_0_0 (ix2 n k))
        (broadcastInDim S4000000x3 ![0, 1] bcast_S1x3_S4000000x3_0_1
          (broadcastInDim S1x3 ![1] bcast_S3_S1x3_1 fun i => FloatOps.ofBits (F := Ideal) FTy.f32 (lit1 (S3.rowMajor i))) (ix2 n k)))
      (broadcastInDim S4000000x3 ![0, 1] bcast_S1x3_S4000000x3_0_1
          (broadcastInDim S1x3 ![1] bcast_S3_S1x3_1 fun i => FloatOps.ofBits (F := Ideal) FTy.f32 (lit0 (S3.rowMajor i))) (ix2 n k)))) = _
  rw [slice2_axis1_apply 0 p _ n k (k.castLE (by decide)) (Nat.zero_add _).symm,
    axisTable_apply (fun k => FloatOps.ofBits (F := Ideal) FTy.f32 (lit1 k)),
    axisTable_apply (fun k => FloatOps.ofBits (F := Ideal) FTy.f32 (lit0 k))]
  match k with
  | ⟨0, _⟩ => rfl
  | ⟨1, _⟩ => rfl
  | ⟨2, _⟩ => rfl

theorem cTerm_eq (p : Spec.SP.Idx → EReal) : cTerm p = Spec.cArr p := by
  funext i
  obtain ⟨n, k, rfl⟩ : ∃ (n : Fin 4000000) (k : Fin 3), i = ix2 n k := ⟨i 0, i 1, eq_ix2 i⟩
  exact cTerm_apply p n k

/-- The reference's voxel coordinates, per point in the order x, y, z. -/
theorem ref_c (V : Valuation τ sig (Elt Ideal)) :
    after (Cert.ReferenceIdeal.Hand.headOps (F := Ideal)) V (Proc.devRef .tc main_v8)
      = Cert.Spec.cArr (V (Proc.devRef .tc main_arg0)) := by
  simp only [Cert.ReferenceIdeal.Hand.headOps]
  after_results_simp
  exact cTerm_eq (V (Proc.devRef .tc main_arg0))

section Flat

/-- Column `k` of a `[4000000, 3]` array, cut out and flattened, reads at point `n` the array at `(n, k)`. -/
theorem col_apply {α : Type} (c : S4000000x3.Idx → α) (o : Nat) (h : S4000000x3.Slices ![0, o] S4000000x1) (n : Fin 4000000)
    (k : Fin 3) (hk : k.val = o) :
    shapeCast S4000000 (extractStridedSlice S4000000x1 ![0, o] c h) shapeCasts_S4000000x1_S4000000 (ix1 n) = c (ix2 n k) := by
  rw [shapeCast_a1_a_apply, slice2_axis1_apply o c h n 0 k (by rw [hk]; rfl)]

/-- The source index over point `n` with axis coordinate `k` is `(n, k)`. -/
theorem lift_ix1 (hR : S4000000x3.Reduces [1] S4000000) (n : Fin 4000000) (k : Fin 3) : hR.lift (ix1 n) k = ix2 n k := by
  funext c
  match c with
  | ⟨0, _⟩ => rfl
  | ⟨1, _⟩ => rfl

/-- Six one-bit words conjoined axis by axis from the word 1 are the six conjoined left to right. -/
theorem and6 (a0 b0 a1 b1 a2 b2 : BitVec 1) :
    IntOp.andi (IntOp.andi a0 b0) (IntOp.andi (IntOp.andi a1 b1) (IntOp.andi (IntOp.andi a2 b2) 1#1))
      = IntOp.andi (IntOp.andi (IntOp.andi (IntOp.andi (IntOp.andi a0 b0) a1) b1) a2) b2 := by
  revert a0 b0 a1 b1 a2 b2
  decide

/-- A fold of a commutative, associative operation over three values, written out. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- A conjunction over a point's three axes, from the initial word 1: the three entries conjoined. -/
theorem allAxes_apply (x : IVec S4000000x3 1) (n : Fin 4000000) :
    Host.reduce IntOp.andi x (constantI S_ 1 1#1) reducesTo_S4000000x3_S4000000_d1 h_S_ (ix1 n)
      = IntOp.andi (x (ix2 n 0)) (IntOp.andi (x (ix2 n 1)) (IntOp.andi (x (ix2 n 2)) 1#1)) := by
  have hR : S4000000x3.Reduces [1] S4000000 := by decide
  rw [Host.reduce_eq_fold_single IntOp.andi x _ reducesTo_S4000000x3_S4000000_d1 hR h_S_]
  refine (fold_univ_fin3 IntOp.andi 1#1 (x ∘ hR.lift (ix1 n))).trans ?_
  show IntOp.andi (x (hR.lift (ix1 n) (0 : Fin 3))) (IntOp.andi (x (hR.lift (ix1 n) (1 : Fin 3))) (IntOp.andi (x (hR.lift (ix1 n) (2 : Fin 3))) 1#1)) = _
  rw [lift_ix1, lift_ix1, lift_ix1]

end Flat

section FlatTerm

/-- The per-axis range test at point `n`, axis `k`: the coordinate is at least 0 and below that axis's extent. -/
theorem inRange_apply (c : IVec S4000000x3 32) (n : Fin 4000000) (k : Fin 3) :
    andi (cmpi .sge c (broadcastInDim S4000000x3 ![] bcast_S_S4000000x3 (constantI S_ 32 0#32)))
        (cmpi .slt c (broadcastInDim S4000000x3 ![0, 1] bcast_S1x3_S4000000x3_0_1
          (broadcastInDim S1x3 ![1] bcast_S3_S1x3_1 fun i => lit2 (S3.rowMajor i)))) (ix2 n k)
      = IntOp.andi (IntOp.cmpi .sge (c (ix2 n k)) 0#32) (IntOp.cmpi .slt (c (ix2 n k)) (lit2 k)) := by
  show IntOp.andi
      (IntOp.cmpi .sge (c (ix2 n k)) (broadcastInDim S4000000x3 ![] bcast_S_S4000000x3 (constantI S_ 32 0#32) (ix2 n k)))
      (IntOp.cmpi .slt (c (ix2 n k)) (broadcastInDim S4000000x3 ![0, 1] bcast_S1x3_S4000000x3_0_1
          (broadcastInDim S1x3 ![1] bcast_S3_S1x3_1 fun i => lit2 (S3.rowMajor i)) (ix2 n k))) = _
  rw [bcast_scalar_apply, axisTable_apply lit2]
  rfl

/-- The reference's flat-id array as a term over a coordinate array. -/
def flatTerm (c : IVec S4000000x3 32) : IVec S4000000 32 :=
  select
    (Host.reduce IntOp.andi
      (andi (cmpi .sge c (broadcastInDim S4000000x3 ![] bcast_S_S4000000x3 (constantI S_ 32 0#32)))
        (cmpi .slt c (broadcastInDim S4000000x3 ![0, 1] bcast_S1x3_S4000000x3_0_1
          (broadcastInDim S1x3 ![1] bcast_S3_S1x3_1 fun i => lit2 (S3.rowMajor i)))))
      (constantI S_ 1 1#1) reducesTo_S4000000x3_S4000000_d1 h_S_)
    (addi
      (muli
        (addi
          (muli
            (shapeCast S4000000 (extractStridedSlice S4000000x1 ![0, 0] c slices_S4000000x3_S4000000x1_0_0) shapeCasts_S4000000x1_S4000000)
            (broadcastInDim S4000000 ![] bcast_S_S4000000 (constantI S_ 32 1600#32)))
          (shapeCast S4000000 (extractStridedSlice S4000000x1 ![0, 1] c slices_S4000000x3_S4000000x1_0_1) shapeCasts_S4000000x1_S4000000))
        (broadcastInDim S4000000 ![] bcast_S_S4000000 (constantI S_ 32 40#32)))
      (shapeCast S4000000 (extractStridedSlice S4000000x1 ![0, 2] c slices_S4000000x3_S4000000x1_0_2) shapeCasts_S4000000x1_S4000000))
    (broadcastInDim S4000000 ![] bcast_S_S4000000 (constantI S_ 32 90112000#32))

/-- At point `n` the term selects, on the six bounds conjoined left to right, the flat id of the point's three coordinates, else the sentinel. -/
theorem flatTerm_apply (c : IVec S4000000x3 32) (n : Fin 4000000) :
    flatTerm c (ix1 n) =
      Scalar.select
        (IntOp.andi (IntOp.andi (IntOp.andi (IntOp.andi (IntOp.andi
          (IntOp.cmpi .sge (c (ix2 n 0)) 0#32) (IntOp.cmpi .slt (c (ix2 n 0)) 1408#32))
          (IntOp.cmpi .sge (c (ix2 n 1)) 0#32)) (IntOp.cmpi .slt (c (ix2 n 1)) 1600#32))
          (IntOp.cmpi .sge (c (ix2 n 2)) 0#32)) (IntOp.cmpi .slt (c (ix2 n 2)) 40#32))
        (IntOp.addi (IntOp.muli (IntOp.addi (IntOp.muli (c (ix2 n 0)) 1600#32) (c (ix2 n 1))) 40#32) (c (ix2 n 2)))
        90112000#32 := by
  show Scalar.select
      (Host.reduce IntOp.andi
        (andi (cmpi .sge c (broadcastInDim S4000000x3 ![] bcast_S_S4000000x3 (constantI S_ 32 0#32)))
          (cmpi .slt c (broadcastInDim S4000000x3 ![0, 1] bcast_S1x3_S4000000x3_0_1
            (broadcastInDim S1x3 ![1] bcast_S3_S1x3_1 fun i => lit2 (S3.rowMajor i)))))
        (constantI S_ 1 1#1) reducesTo_S4000000x3_S4000000_d1 h_S_ (ix1 n))
      (IntOp.addi
        (IntOp.muli
          (IntOp.addi
            (IntOp.muli
              (shapeCast S4000000 (extractStridedSlice S4000000x1 ![0, 0] c slices_S4000000x3_S4000000x1_0_0) shapeCasts_S4000000x1_S4000000 (ix1 n))
              (broadcastInDim S4000000 ![] bcast_S_S4000000 (constantI S_ 32 1600#32) (ix1 n)))
            (shapeCast S4000000 (extractStridedSlice S4000000x1 ![0, 1] c slices_S4000000x3_S4000000x1_0_1) shapeCasts_S4000000x1_S4000000 (ix1 n)))
          (broadcastInDim S4000000 ![] bcast_S_S4000000 (constantI S_ 32 40#32) (ix1 n)))
        (shapeCast S4000000 (extractStridedSlice S4000000x1 ![0, 2] c slices_S4000000x3_S4000000x1_0_2) shapeCasts_S4000000x1_S4000000 (ix1 n)))
      (broadcastInDim S4000000 ![] bcast_S_S4000000 (constantI S_ 32 90112000#32) (ix1 n)) = _
  rw [allAxes_apply, inRange_apply, inRange_apply, inRange_apply, and6,
    col_apply c 0 _ n 0 rfl, col_apply c 1 _ n 1 rfl, col_apply c 2 _ n 2 rfl]
  simp only [bcast_scalar_apply]
  rfl

/-- Over the specification's coordinates the term is the specification's flat ids. -/
theorem flatTerm_cArr (p : Spec.SP.Idx → EReal) : flatTerm (Spec.cArr p) = Spec.flatArr p := by
  funext i
  obtain ⟨n, rfl⟩ : ∃ n : Fin 4000000, i = ix1 n := ⟨i 0, eq_ix1 i⟩
  rw [flatTerm_apply]
  rfl

end FlatTerm

section Where

/-- The operations run in two stretches: the first `n`, then the rest from where those leave the buffers. -/
theorem after_cut (n : Nat) (ops : List (HloOp τ sig (Elt Ideal))) (V : Valuation τ sig (Elt Ideal)) :
    after ops V = after (ops.drop n) (after (ops.take n) V) := by
  induction ops generalizing n V with
  | nil => cases n <;> rfl
  | cons op l ih =>
    cases n with
    | zero => rfl
    | succ m => exact ih m _

/-- The last three operations: the call of the selection function on the range test, the flat id and the sentinel. -/
def whereOps : List (HloOp τ sig (Elt Ideal)) :=
  [ StableHlo.TRef.unary (.of main_c_5 : StableHlo.TRef sig ⟨S_, .i32⟩) main_call0.v0 id,
    StableHlo.TRef.unary main_call0.v0 main_call0.v1 (broadcastInDim S4000000 ![] bcast_S_S4000000),
    StableHlo.TRef.ternary (.of main_v15 : StableHlo.TRef sig ⟨S4000000, .i1⟩) (.of main_v27 : StableHlo.TRef sig ⟨S4000000, .i32⟩) main_call0.v1 main_call0.v2 select ]

/-- From any buffer contents the called function's result is the selection between the flat ids and the broadcast sentinel. -/
theorem whereOps_result (W : Valuation τ sig (Elt Ideal)) :
    after whereOps W (Proc.devRef .tc main_v28)
      = select (W (Proc.devRef .tc main_v15) : IVec S4000000 1) (W (Proc.devRef .tc main_v27) : IVec S4000000 32)
          (broadcastInDim S4000000 ![] bcast_S_S4000000 (W (Proc.devRef .tc main_c_5) : IVec S_ 32)) := by
  simp only [whereOps]
  after_results_simp
  rfl

end Where

/-- The reference's flat ids. -/
theorem ref_flat (V : Valuation τ sig (Elt Ideal)) :
    after (Cert.ReferenceIdeal.Hand.headOps (F := Ideal)) V (Proc.devRef .tc main_v28)
      = Cert.Spec.flatArr (V (Proc.devRef .tc main_arg0)) := by
  rw [after_cut 36]
  have hd : (Cert.ReferenceIdeal.Hand.headOps (F := Ideal)).drop 36 = whereOps := rfl
  rw [hd, whereOps_result]
  simp only [Cert.ReferenceIdeal.Hand.headOps, List.take_succ_cons, List.take_zero]
  after_results_simp
  have hc := ref_c V
  simp (disch := decide) only [Cert.ReferenceIdeal.Hand.headOps, after_cons, after_nil,
    nullary_result', unary_result', binary_result', nullary_result_ne', unary_result_ne', binary_result_ne',
    ternary_result_ne', reshape_result_ne'] at hc
  simp only [hc]
  exact flatTerm_cArr (V (Proc.devRef .tc main_arg0))

end Cert.ReferenceIdeal.Head

end
-- ==== Proof.LibIndexed.lean ====
/-
  Gathers and accumulating scatters read at an index, for the dimension numbers a row gather, a column gather, an
  entry gather and a segment sum print with. Each lemma takes the dimension record as a variable with its printed
  fields as hypotheses, so it serves any program that prints the same numbers.

  A gather reads its operand at the start index taken signed off the index column and clamped into the operand; where
  the word is already a position n of the gathered axis, it reads position n. An accumulating scatter at the extended
  reals is each operand entry plus the sum of the updates whose start index, read signed and NOT clamped, is that
  entry; an update whose index falls outside contributes nothing.
-/
import Idealize.ShloMosaic.PureOps.Ideal
import Idealize.ShloMosaic.PureOps.Contract
import Idealize.ShloMosaic.Lib.ValueIdx
import Idealize.ShloMosaic.Lib.StableHlo.Predicate

noncomputable section

namespace Cert.Proof.LibIndexed

open Idealize.ShloMosaic Idealize.ShloMosaic.ValueIdx

/-- The row gather's dimension numbers as a literal record over its well-formedness. -/
private abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at the literal record: the gathered axis reads the clamped start, the other axis the offset. -/
private theorem gather_rows_lit {α : Type} {N C E w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (n : Fin N)
    (h : (idx (ix2 e 0)).toInt = (n : ℤ)) :
    Host.gather (rowsDims N C E wf) x idx (ix2 e k) = x (ix2 n k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ)).toNat (N - 1) = n.val
    have := n.isLt
    omega
  | ⟨1, _⟩ =>
    show (rowsDims N C E wf).start (ix2 e k) idx 1 + (rowsDims N C E wf).batchCoord (ix2 e k) 1
      + (rowsDims N C E wf).offCoord (ix2 e k) 1 = k.val
    have hs : (rowsDims N C E wf).start (ix2 e k) idx 1 = 0 := by
      unfold GatherDims.start
      rw [dif_neg (show (1 : Fin 2) ∉ (rowsDims N C E wf).startIndexMap by
        show (1 : Fin 2) ∉ [(0 : Fin 2)]; decide)]
    have ho : (rowsDims N C E wf).offCoord (ix2 e k) 1 = k.val := rfl
    rw [GatherDims.batchCoord_eq_zero _ _ _ List.not_mem_nil, hs, ho]
    omega

/-- A row gather `x[idx]` of an [N × C] table by an [E × 1] column of start words: row `e`, column `k` of the result
    is row `n` of the table when edge `e`'s word, read signed, is `n`. -/
theorem gather_rows_apply {α : Type} {N C E w : Nat}
    (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![E, 1]⟩ w) (e : Fin E) (k : Fin C) (n : Fin N)
    (h : (idx (ix2 e 0)).toInt = (n : ℤ)) :
    Host.gather d x idx (ix2 e k) = x (ix2 n k) := by
  obtain ⟨od, cd, ob, sb, sm, iv, ss, wf⟩ := d
  dsimp only at hoff hcoll hob hsb hsim hivd hss
  subst hoff hcoll hob hsb hsim hivd hss
  exact gather_rows_lit wf x idx e k n h

/-- The column gather's dimension numbers as a literal record over its well-formedness. -/
private abbrev colsDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- The column gather at the literal record: the first axis reads the offset, the gathered axis the clamped start. -/
private theorem gather_cols_lit {α : Type} {R N E w : Nat}
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (r : Fin R) (e : Fin E) (n : Fin N)
    (h : (idx (ix2 e 0)).toInt = (n : ℤ)) :
    Host.gather (colsDims R N E wf) x idx (ix2 r e) = x (ix2 r n) := by
  unfold Host.gather
  congr 1
  funext a
  refine Fin.ext ?_
  match a with
  | ⟨0, _⟩ =>
    show (colsDims R N E wf).start (ix2 r e) idx 0 + (colsDims R N E wf).batchCoord (ix2 r e) 0
      + (colsDims R N E wf).offCoord (ix2 r e) 0 = r.val
    have hs : (colsDims R N E wf).start (ix2 r e) idx 0 = 0 := by
      unfold GatherDims.start
      rw [dif_neg (show (0 : Fin 2) ∉ (colsDims R N E wf).startIndexMap by
        show (0 : Fin 2) ∉ [(1 : Fin 2)]; decide)]
    have ho : (colsDims R N E wf).offCoord (ix2 r e) 0 = r.val := rfl
    rw [GatherDims.batchCoord_eq_zero _ _ _ List.not_mem_nil, hs, ho]
    omega
  | ⟨1, _⟩ =>
    show (colsDims R N E wf).start (ix2 r e) idx 1 + (colsDims R N E wf).batchCoord (ix2 r e) 1
      + (colsDims R N E wf).offCoord (ix2 r e) 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R N E wf).startIndexMap from List.mem_singleton.mpr rfl)]
    have hsi : (colsDims R N E wf).siIdx (ix2 r e) ⟨List.idxOf (1 : Fin 2) (colsDims R N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ)).toNat (N - 1) = n.val
    have := n.isLt
    omega

/-- A column gather (`jnp.take(x, idx, axis=1)`) of an [R × N] table: row `r`, column `e` of the result is column `n`
    of the table when edge `e`'s word, read signed, is `n`. -/
theorem gather_cols_apply {α : Type} {R N E w : Nat}
    (d : GatherDims ⟨2, ![R, N]⟩ ⟨2, ![E, 1]⟩ ⟨2, ![R, E]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![E, 1]⟩ w) (r : Fin R) (e : Fin E) (n : Fin N)
    (h : (idx (ix2 e 0)).toInt = (n : ℤ)) :
    Host.gather d x idx (ix2 r e) = x (ix2 r n) := by
  obtain ⟨od, cd, ob, sb, sm, iv, ss, wf⟩ := d
  dsimp only at hoff hcoll hob hsb hsim hivd hss
  subst hoff hcoll hob hsb hsim hivd hss
  exact gather_cols_lit wf x idx r e n h

/-- An entry gather `x[idx]` of a length-N vector: entry `e` of the result is entry `n` of the vector when edge
    `e`'s word, read signed, is `n`. -/
theorem gather_vec_apply {α : Type} {N E w : Nat}
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (n : Fin N)
    (h : (idx (ix2 e 0)).toInt = (n : ℤ)) :
    Host.gather d x idx (ix1 e) = x (ix1 n) := by
  have hN : 0 < N := Nat.lt_of_le_of_lt (Nat.zero_le _) n.isLt
  have h1 : (ix1 e : (⟨1, ![E]⟩ : Shape).Idx) = Shape.Idx.ofFin e := by
    funext a; match a with | ⟨0, _⟩ => rfl
  have h2 : (StableHlo.Predicate.ixP e : (⟨2, ![E, 1]⟩ : Shape).Idx) = ix2 e 0 := by
    funext b; match b with | ⟨0, _⟩ => rfl | ⟨1, _⟩ => rfl
  rw [h1, StableHlo.Predicate.gather_take d hcoll hob hsim hivd x idx e hN]
  congr 1
  funext a
  refine Fin.ext ?_
  match a with
  | ⟨0, _⟩ =>
    show min (idx (StableHlo.Predicate.ixP e)).toInt.toNat (N - 1) = n.val
    rw [h2, h]
    have := n.isLt
    omega

/-- An update lands at entry `i` exactly when, on every axis, its start read signed plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · next hin =>
    constructor
    · intro hs a
      have hf := congrFun (Option.some.inj hs) a
      have hv : (d.start j idx a + (d.window j a : ℤ)).toNat = (i a).val := congrArg Fin.val hf
      have := hin a
      omega
    · intro hall
      congr 1
      funext a
      refine Fin.ext ?_
      show (d.start j idx a + (d.window j a : ℤ)).toNat = (i a).val
      rw [hall a]
      exact Int.toNat_natCast _
  · next hout =>
    constructor
    · intro hs
      cases hs
    · intro hall
      exfalso
      apply hout
      intro a
      rw [hall a]
      exact ⟨Int.natCast_nonneg _, Int.ofNat_lt.mpr (i a).isLt⟩

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector segment sum's dimension numbers as a literal record over its well-formedness. -/
private abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s update starts, on the one operand axis, at the edge's word read signed. -/
private theorem vecScat_start {N E w : Nat} (wf : ScatterDims.WF ⟨1, ![N]⟩ ⟨2, ![E, 1]⟩ ⟨1, ![E]⟩ [] [0] [0] 1)
    (idx : IVec ⟨2, ![E, 1]⟩ w) (e : Fin E) :
    (vecScat N E wf).start (ix1 e) idx 0 = (idx (ix2 e 0)).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate on it. -/
private theorem vecScat_window {N E : Nat} (wf : ScatterDims.WF ⟨1, ![N]⟩ ⟨2, ![E, 1]⟩ ⟨1, ![E]⟩ [] [0] [0] 1)
    (e : Fin E) : (vecScat N E wf).window (ix1 e) 0 = 0 := rfl

/-- Edge `e`'s update lands at entry `n` exactly when the edge's word read signed is `n`. -/
private theorem vecScat_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScat N E wf).resultIdx? (ix1 e) idx = some (ix1 n) ↔ (idx (ix2 e 0)).toInt = (n : ℤ) := by
  rw [resultIdx?_eq_some_iff]
  have hs := vecScat_start wf idx e
  have hw := vecScat_window wf e
  constructor
  · intro hall
    have h0 : (vecScat N E wf).start (ix1 e) idx 0 + ((vecScat N E wf).window (ix1 e) 0 : ℤ) = (n.val : ℤ) := hall 0
    omega
  · intro hW a
    match a with
    | ⟨0, _⟩ =>
      show (vecScat N E wf).start (ix1 e) idx 0 + ((vecScat N E wf).window (ix1 e) 0 : ℤ) = (n.val : ℤ)
      omega

/-- The vector segment sum at the literal record. -/
private theorem scatterAdd_vec_lit {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScat N E wf) x idx upd (ix1 n)
      = (x (ix1 n) : EReal) + ∑ e : Fin E, if (idx (ix2 e 0)).toInt = (n : ℤ) then (upd (ix1 e) : EReal) else 0 := by
  unfold Host.scatterAdd
  rw [Ideal.hostScatterAdd_def]
  unfold Ideal.hostScatterAdd
  congr 1
  rw [Finset.sum_filter, sum_idx1]
  refine Finset.sum_congr rfl (fun e _ => ?_)
  by_cases hW : (idx (ix2 e 0)).toInt = (n : ℤ)
  · rw [if_pos hW, if_pos ((vecScat_lands wf idx e n).2 hW)]
  · rw [if_neg hW, if_neg (fun hc => hW ((vecScat_lands wf idx e n).1 hc))]

/-- A segment sum into a length-N vector, at the extended reals: entry `n` is the operand's entry plus the sum, over
    the edges whose word read signed is `n`, of the edge's update. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = (x (ix1 n) : EReal) + ∑ e : Fin E, if (idx (ix2 e 0)).toInt = (n : ℤ) then (upd (ix1 e) : EReal) else 0 := by
  obtain ⟨uw, iw, sd, iv, wf⟩ := d
  dsimp only at huw hiw hsd hivd
  subst huw hiw hsd hivd
  exact scatterAdd_vec_lit wf x idx upd n

/-- The row segment sum's dimension numbers as a literal record over its well-formedness. -/
private abbrev rowsScat (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e`'s update row starts, on the row axis, at the edge's word read signed … -/
private theorem rowsScat_start0 {N C E w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScat N C E wf).start (ix2 e k) idx 0 = (idx (ix2 e 0)).toInt := by
  unfold ScatterDims.start
  rw [dif_pos (show (0 : Fin 2) ∈ (rowsScat N C E wf).scatterDimsToOperandDims from List.mem_singleton.mpr rfl)]
  have hsi : (rowsScat N C E wf).siIdx (ix2 e k) ⟨List.idxOf (0 : Fin 2) (rowsScat N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at zero. -/
private theorem rowsScat_start1 {N C E w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScat N C E wf).start (ix2 e k) idx 1 = 0 := by
  unfold ScatterDims.start
  rw [dif_neg (show (1 : Fin 2) ∉ (rowsScat N C E wf).scatterDimsToOperandDims by
    show (1 : Fin 2) ∉ [(0 : Fin 2)]; decide)]

/-- The row axis is inserted: no window coordinate on it … -/
private theorem rowsScat_window0 {N C E : Nat}
    (wf : ScatterDims.WF ⟨2, ![N, C]⟩ ⟨2, ![E, 1]⟩ ⟨2, ![E, C]⟩ [1] [0] [0] 1) (e : Fin E) (k : Fin C) :
    (rowsScat N C E wf).window (ix2 e k) 0 = 0 := rfl

/-- … and the column axis carries the update's column. -/
private theorem rowsScat_window1 {N C E : Nat}
    (wf : ScatterDims.WF ⟨2, ![N, C]⟩ ⟨2, ![E, 1]⟩ ⟨2, ![E, C]⟩ [1] [0] [0] 1) (e : Fin E) (k : Fin C) :
    (rowsScat N C E wf).window (ix2 e k) 1 = k.val := rfl

/-- Column `k'` of edge `e`'s update row lands at row `n`, column `k` exactly when the edge's word read signed is
    `n` and `k'` is `k`. -/
private theorem rowsScat_lands {N C E w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (n : Fin N) (k : Fin C) :
    (rowsScat N C E wf).resultIdx? (ix2 e k') idx = some (ix2 n k)
      ↔ (idx (ix2 e 0)).toInt = (n : ℤ) ∧ k' = k := by
  rw [resultIdx?_eq_some_iff]
  have hs0 := rowsScat_start0 wf idx e k'
  have hs1 := rowsScat_start1 wf idx e k'
  have hw0 := rowsScat_window0 wf e k'
  have hw1 := rowsScat_window1 wf e k'
  constructor
  · intro hall
    have h0 : (rowsScat N C E wf).start (ix2 e k') idx 0 + ((rowsScat N C E wf).window (ix2 e k') 0 : ℤ)
        = (n.val : ℤ) := hall 0
    have h1 : (rowsScat N C E wf).start (ix2 e k') idx 1 + ((rowsScat N C E wf).window (ix2 e k') 1 : ℤ)
        = (k.val : ℤ) := hall 1
    refine ⟨by omega, Fin.ext (by omega)⟩
  · rintro ⟨hW, rfl⟩ a
    match a with
    | ⟨0, _⟩ =>
      show (rowsScat N C E wf).start (ix2 e k') idx 0 + ((rowsScat N C E wf).window (ix2 e k') 0 : ℤ) = (n.val : ℤ)
      omega
    | ⟨1, _⟩ =>
      show (rowsScat N C E wf).start (ix2 e k') idx 1 + ((rowsScat N C E wf).window (ix2 e k') 1 : ℤ) = (k'.val : ℤ)
      omega

/-- The row segment sum at the literal record: of an edge's update row only column `k` can land in column `k`. -/
private theorem scatterAdd_rows_lit {N C E w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) (rowsScat N C E wf) x idx upd (ix2 n k)
      = (x (ix2 n k) : EReal) + ∑ e : Fin E, if (idx (ix2 e 0)).toInt = (n : ℤ) then (upd (ix2 e k) : EReal) else 0 := by
  unfold Host.scatterAdd
  rw [Ideal.hostScatterAdd_def]
  unfold Ideal.hostScatterAdd
  congr 1
  rw [Finset.sum_filter, sum_idx2]
  refine Finset.sum_congr rfl (fun e _ => ?_)
  by_cases hW : (idx (ix2 e 0)).toInt = (n : ℤ)
  · rw [if_pos hW, Finset.sum_eq_single k]
    · rw [if_pos ((rowsScat_lands wf idx e k n k).2 ⟨hW, rfl⟩)]
    · intro k' _ hk'
      rw [if_neg (fun hc => hk' ((rowsScat_lands wf idx e k' n k).1 hc).2)]
    · intro hk
      exact absurd (Finset.mem_univ k) hk
  · rw [if_neg hW]
    refine Finset.sum_eq_zero (fun k' _ => ?_)
    rw [if_neg (fun hc => hW ((rowsScat_lands wf idx e k' n k).1 hc).1)]

/-- A segment sum of rows into an [N × C] table, at the extended reals: row `n`, column `k` is the operand's entry plus
    the sum, over the edges whose word read signed is `n`, of column `k` of the edge's update row. -/
theorem scatterAdd_rows_apply {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) d x idx upd (ix2 n k)
      = (x (ix2 n k) : EReal) + ∑ e : Fin E, if (idx (ix2 e 0)).toInt = (n : ℤ) then (upd (ix2 e k) : EReal) else 0 := by
  obtain ⟨uw, iw, sd, iv, wf⟩ := d
  dsimp only at huw hiw hsd hivd
  subst huw hiw hsd hivd
  exact scatterAdd_rows_lit wf x idx upd n k

end Cert.Proof.LibIndexed

end
-- ==== Proof.Czyx.lean ====
/-
  Gathering rows of the coordinates: the kernel's program lays the z, y, x columns side by side and gathers rows; the
  reference gathers rows of its x, y, z array and reverses each row. A row gather reads, for every output row, ONE row of
  its operand — the start word clamped into the operand, whatever the word is — at the output's own column, so it
  commutes with any rearrangement of the columns.
-/
import proofs.«173120_j5892695130408_1_alg».proof.Proof.Gen.KernelIdeal
import proofs.«173120_j5892695130408_1_alg».proof.Proof.Spec
import proofs.«173120_j5892695130408_1_alg».proof.Proof.LibIndexed
import Idealize.ShloMosaic.Lib.Pipeline.Value
import Idealize.ShloMosaic.Lib.ValueIdx
import Idealize.ShloMosaic.Lib.ValueLayout

set_option maxRecDepth 16384

noncomputable section

namespace Cert.KernelIdeal.Czyx

open Cert.KernelIdeal Cert.KernelIdeal.Gen
open Idealize.ShloMosaic Idealize.ShloMosaic.ValueIdx

/-- Three columns of 4000000 integers side by side. -/
def cat3 (a b c : IVec S4000000x1 32) : IVec S4000000x3 32 :=
  concatenate S4000000x3 1 [⟨S4000000x1, a⟩, ⟨S4000000x1, b⟩, ⟨S4000000x1, c⟩]
    concatenates_S4000000x1_S4000000x1_S4000000x1_S4000000x3_d1

/-- An array of 4000000 integers as a column. -/
abbrev col (x : IVec S4000000 32) : IVec S4000000x1 32 := broadcastInDim S4000000x1 ![0] bcast_S4000000_S4000000x1_0 x

/-! ## A row gather read at an index, whatever the start word -/

/-- The row gather's dimension numbers as a literal record over its well-formedness. -/
private abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def rowOf (N : Nat) (hN : 0 < N) {w : Nat} (v : BitVec w) : Fin N := ⟨min v.toInt.toNat (N - 1), by omega⟩

/-- The row gather at the literal record: output row `e` reads the row its start word names, clamped, and output
    column `k` reads column `k`. No range is asked of the word. -/
private theorem gather_rows_clamp_lit {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k) = x (ix2 (rowOf N hN (idx (ix2 e 0))) k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    have hs : (rowsDims N C E wf).start (ix2 e k) idx 1 = 0 := by
      unfold GatherDims.start
      rw [dif_neg (show (1 : Fin 2) ∉ (rowsDims N C E wf).startIndexMap by
        show (1 : Fin 2) ∉ [(0 : Fin 2)]; decide)]
    have ho : (rowsDims N C E wf).offCoord (ix2 e k) 1 = k.val := rfl
    rw [GatherDims.batchCoord_eq_zero _ _ _ List.not_mem_nil, hs, ho]
    omega

/-- A row gather `x[idx]` of an [N × C] table by an [E × 1] column of start words, for any record with the row gather's
    dimension numbers: row `e`, column `k` of the result is column `k` of the row edge `e`'s word names, clamped. -/
theorem gather_rows_clamp_apply {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k) = x (ix2 (rowOf N hN (idx (ix2 e 0))) k) := by
  obtain ⟨od, cd, ob, sb, sm, iv, ss, wf⟩ := d
  dsimp only at hoff hcoll hob hsb hsim hivd hss
  subst hoff hcoll hob hsb hsim hivd hss
  exact gather_rows_clamp_lit hN wf x idx e k

/-- The program's row gather of a three-column table of 4000000 rows, read at row `e` and column `k`. -/
theorem gather3_apply {α : Type} (x : S4000000x3.Idx → α) (idx : IVec S4000000x1 32) (e : Fin 4000000) (k : Fin 3) :
    Host.gather gather_S4000000x3_S4000000x1_S4000000x3_1_0_n_n_0_1_13 x idx (ix2 e k)
      = x (ix2 (rowOf 4000000 (by decide) (idx (ix2 e 0))) k) :=
  gather_rows_clamp_apply (N := 4000000) (C := 3) (E := 4000000) (by decide)
    gather_S4000000x3_S4000000x1_S4000000x3_1_0_n_n_0_1_13 rfl rfl rfl rfl rfl rfl rfl x idx e k

/-! ## The three columns side by side, and the reversed row, read at an index -/

/-- A column read at row `r` is the array's entry `r`. -/
theorem col_apply (x : IVec S4000000 32) (r : Fin 4000000) : col x (ix2 r (0 : Fin 1)) = x (ix1 r) := by
  refine broadcastInDim_apply _ _ x _ (ix1 r) ?_
  intro a
  match a with
  | ⟨0, _⟩ =>
    rw [if_neg (show ¬ S4000000.size ⟨0, by decide⟩ = 1 by decide)]
    rfl

/-- Three columns side by side read at row `r`: column 0 is the first, column 1 the second, column 2 the third. -/
theorem cat3_apply (a b c : IVec S4000000x1 32) (r : Fin 4000000) :
    cat3 a b c (ix2 r (0 : Fin 3)) = a (ix2 r (0 : Fin 1)) ∧ cat3 a b c (ix2 r (1 : Fin 3)) = b (ix2 r (0 : Fin 1))
      ∧ cat3 a b c (ix2 r (2 : Fin 3)) = c (ix2 r (0 : Fin 1)) := by
  have hi : ∀ (k : Fin 3) (b' : Fin S4000000x1.rank), b'.cast (rfl : S4000000x1.rank = S4000000x3.rank) ≠ 1 →
      ((ix2 r (0 : Fin 1) : S4000000x1.Idx) b').val = ((ix2 r k : S4000000x3.Idx) (b'.cast rfl)).val := by
    intro k b' hb'
    match b' with
    | ⟨0, _⟩ => rfl
    | ⟨1, _⟩ => exact absurd rfl hb'
  refine ⟨?_, ?_, ?_⟩
  · exact concatenate_apply_piece (1 : Fin S4000000x3.rank) [⟨S4000000x1, a⟩, ⟨S4000000x1, b⟩, ⟨S4000000x1, c⟩]
      concatenates_S4000000x1_S4000000x1_S4000000x1_S4000000x3_d1 (ix2 r (0 : Fin 3)) 0 (show 0 < 3 by decide) S4000000x1 a rfl rfl 0 rfl
      (ix2 r (0 : Fin 1)) (hi 0) rfl
  · exact concatenate_apply_piece (1 : Fin S4000000x3.rank) [⟨S4000000x1, a⟩, ⟨S4000000x1, b⟩, ⟨S4000000x1, c⟩]
      concatenates_S4000000x1_S4000000x1_S4000000x1_S4000000x3_d1 (ix2 r (1 : Fin 3)) 1 (show 1 < 3 by decide) S4000000x1 b rfl rfl 1 rfl
      (ix2 r (0 : Fin 1)) (hi 1) rfl
  · exact concatenate_apply_piece (1 : Fin S4000000x3.rank) [⟨S4000000x1, a⟩, ⟨S4000000x1, b⟩, ⟨S4000000x1, c⟩]
      concatenates_S4000000x1_S4000000x1_S4000000x1_S4000000x3_d1 (ix2 r (2 : Fin 3)) 2 (show 2 < 3 by decide) S4000000x1 c rfl rfl 2 rfl
      (ix2 r (0 : Fin 1)) (hi 2) rfl

/-- A row-reversed three-column table read at column `k` reads column `2 - k`. -/
theorem reverse3_apply {α : Type} (y : S4000000x3.Idx → α) (e : Fin 4000000) (k : Fin 3) :
    Host.reverse (s := S4000000x3) [1] y (ix2 e k) = y (ix2 e k.rev) := by
  unfold Host.reverse
  congr 1
  funext a
  match a with
  | ⟨0, _⟩ => rfl
  | ⟨1, _⟩ => rfl

/-- Rows gathered from the columns z, y, x are the reversed rows gathered from the array x, y, z. -/
theorem gather_czyx (p : Cert.Spec.SP.Idx → EReal) (idx : IVec S4000000x1 32) :
    Host.gather gather_S4000000x3_S4000000x1_S4000000x3_1_0_n_n_0_1_13
        (cat3 (col (Cert.Spec.czArr p)) (col (Cert.Spec.cyArr p)) (col (Cert.Spec.cxArr p))) idx
      = Host.reverse (s := S4000000x3) [1]
          (Host.gather gather_S4000000x3_S4000000x1_S4000000x3_1_0_n_n_0_1_13 (Cert.Spec.cArr p) idx) := by
  funext o
  obtain ⟨e, k, rfl⟩ : ∃ (e : Fin 4000000) (k : Fin 3), o = ix2 e k := ⟨o 0, o 1, eq_ix2 o⟩
  rw [reverse3_apply, gather3_apply, gather3_apply]
  obtain ⟨h0, h1, h2⟩ := cat3_apply (col (Cert.Spec.czArr p)) (col (Cert.Spec.cyArr p)) (col (Cert.Spec.cxArr p))
    (rowOf 4000000 (by decide) (idx (ix2 e 0)))
  match k with
  | ⟨0, _⟩ => exact h0.trans (col_apply _ _)
  | ⟨1, _⟩ => exact h1.trans (col_apply _ _)
  | ⟨2, _⟩ => exact h2.trans (col_apply _ _)

end Cert.KernelIdeal.Czyx

end
-- ==== Proof.Bridges.lean ====
/-
  The two programs' later lines compute the same things from the same flat ids.

  After the flat ids are known both programs run the same host operations, in slightly different orders: a stable sort
  of the ids, the sorted ids' voxel starts, a running count and a running maximum that give each point its voxel's
  segment number and its rank inside the voxel, the voxels ordered by first appearance, a slot per voxel, and then four
  scatters (the points, their count per voxel, the voxel coordinates, the number of voxels). Read back as one composed
  term each, a result of the kernel's program and the matching result of the reference are the same composition of the
  same operations of the flat ids and the points; only the coordinates scattered into `coors` arrive differently, the
  kernel's as rows gathered from the z, y, x columns and the reference's as reversed rows of its x, y, z array, which
  are the same rows (`gather_czyx`).
-/
import proofs.«173120_j5892695130408_1_alg».proof.Proof.Gen.KernelIdeal.Launch
import proofs.«173120_j5892695130408_1_alg».proof.Proof.RefOps
import proofs.«173120_j5892695130408_1_alg».proof.Proof.Czyx
import proofs.«173120_j5892695130408_1_alg».proof.Proof.Spec
import Idealize.ShloMosaic.Lib.StableHlo.Run

set_option maxRecDepth 16384

noncomputable section

namespace Cert.Bridge

open Idealize.ShloMosaic Idealize.ShloMosaic.TcCoe Idealize.SL.Sem Idealize.ShloMosaic.StableHlo

/-- The kernel program's host lines after the four column cuts. -/
abbrev tailK : List (HloOp Cert.KernelIdeal.τ Cert.KernelIdeal.sig (Elt Ideal)) :=
  List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15]

/-! The concatenations, each as a plain function of its operands. -/

namespace K
open Cert.KernelIdeal Cert.KernelIdeal.Gen
/-- The first point's flag before the flags of the other 3999999. -/
def catNew (a : IVec S1 1) (b : IVec S3999999 1) : IVec S4000000 1 :=
  concatenate S4000000 0 [⟨S1, a⟩, ⟨S3999999, b⟩] concatenates_S1_S3999999_S4000000_d0
theorem catNew_eq (a : IVec S1 1) (b : IVec S3999999 1) :
    concatenate S4000000 0 [⟨S1, a⟩, ⟨S3999999, b⟩] concatenates_S1_S3999999_S4000000_d0 = catNew a b := rfl
/-- A voxel slot column beside a rank column: the scatter's index pairs. -/
def catIdx (a b : IVec S4000000x1 32) : IVec S4000000x2 32 :=
  concatenate S4000000x2 1 [⟨S4000000x1, a⟩, ⟨S4000000x1, b⟩] concatenates_S4000000x1_S4000000x1_S4000000x2_d1
theorem catIdx_eq (a b : IVec S4000000x1 32) :
    concatenate S4000000x2 1 [⟨S4000000x1, a⟩, ⟨S4000000x1, b⟩] concatenates_S4000000x1_S4000000x1_S4000000x2_d1 = catIdx a b := rfl
/-- The line that lays the z, y, x columns side by side leaves `cat3` of the three columns. -/
theorem czyx_result' (hxs hy) (Fv : Valuation τ sig (Elt Ideal)) :
    (StableHlo.nary (τ := τ) ![main_v64, main_v65, main_v66] main_v67
        (fun u => concatenate S4000000x3 1 [⟨S4000000x1, u 0⟩, ⟨S4000000x1, u 1⟩, ⟨S4000000x1, u 2⟩]
          concatenates_S4000000x1_S4000000x1_S4000000x1_S4000000x3_d1) hxs hy).result Fv (no_index (Proc.devRef .tc main_v67))
      = Cert.KernelIdeal.Czyx.cat3 (Fv (Proc.devRef .tc main_v64)) (Fv (Proc.devRef .tc main_v65)) (Fv (Proc.devRef .tc main_v66)) := by
  rw [StableHlo.nary_result]; rfl
end K

namespace R
open Cert.ReferenceIdeal Cert.ReferenceIdeal.Gen
def catNew (a : IVec S1 1) (b : IVec S3999999 1) : IVec S4000000 1 :=
  concatenate S4000000 0 [⟨S1, a⟩, ⟨S3999999, b⟩] concatenates_S1_S3999999_S4000000_d0
theorem catNew_eq (a : IVec S1 1) (b : IVec S3999999 1) :
    concatenate S4000000 0 [⟨S1, a⟩, ⟨S3999999, b⟩] concatenates_S1_S3999999_S4000000_d0 = catNew a b := rfl
def catIdx (a b : IVec S4000000x1 32) : IVec S4000000x2 32 :=
  concatenate S4000000x2 1 [⟨S4000000x1, a⟩, ⟨S4000000x1, b⟩] concatenates_S4000000x1_S4000000x1_S4000000x2_d1
theorem catIdx_eq (a b : IVec S4000000x1 32) :
    concatenate S4000000x2 1 [⟨S4000000x1, a⟩, ⟨S4000000x1, b⟩] concatenates_S4000000x1_S4000000x1_S4000000x2_d1 = catIdx a b := rfl
end R

variable (VK : Valuation Cert.KernelIdeal.τ Cert.KernelIdeal.sig (Elt Ideal))
  (VR : Valuation Cert.ReferenceIdeal.τ Cert.ReferenceIdeal.sig (Elt Ideal))

attribute [local irreducible] Host.sort2 Host.gather Host.scatter Host.reduceWindow Host.reduce in
set_option maxHeartbeats 16000000 in
/-- The scattered points: the same composition of the points and the flat ids in both programs. -/
theorem voxels
    (h0 : VR (Proc.devRef .tc Cert.ReferenceIdeal.main_arg0) = VK (Proc.devRef .tc Cert.KernelIdeal.main_arg0))
    (h8 : VR (Proc.devRef .tc Cert.ReferenceIdeal.main_v28) = VK (Proc.devRef .tc Cert.KernelIdeal.main_v8)) :
    after Cert.ReferenceIdeal.Hand.tailOps VR (Proc.devRef .tc Cert.ReferenceIdeal.main_v105)
      = after tailK VK (Proc.devRef .tc Cert.KernelIdeal.main_v96) := by
  simp only [tailK, Cert.ReferenceIdeal.Hand.tailOps, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15,
    List.flatten_cons, List.flatten_nil, List.append_nil, List.cons_append, List.nil_append]
  simp only [K.catNew_eq, K.catIdx_eq, R.catNew_eq, R.catIdx_eq]
  after_results_simp
  simp only [h0, h8]
  rfl

attribute [local irreducible] Host.sort2 Host.gather Host.scatter Host.reduceWindow Host.reduce in
set_option maxHeartbeats 16000000 in
/-- The number of points kept per voxel. -/
theorem numPoints
    (h8 : VR (Proc.devRef .tc Cert.ReferenceIdeal.main_v28) = VK (Proc.devRef .tc Cert.KernelIdeal.main_v8)) :
    after Cert.ReferenceIdeal.Hand.tailOps VR (Proc.devRef .tc Cert.ReferenceIdeal.main_v114)
      = after tailK VK (Proc.devRef .tc Cert.KernelIdeal.main_v105) := by
  simp only [tailK, Cert.ReferenceIdeal.Hand.tailOps, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15,
    List.flatten_cons, List.flatten_nil, List.append_nil, List.cons_append, List.nil_append]
  simp only [K.catNew_eq, K.catIdx_eq, R.catNew_eq, R.catIdx_eq]
  after_results_simp
  simp only [h8]
  rfl

attribute [local irreducible] Host.sort2 Host.gather Host.scatter Host.reduceWindow Host.reduce in
set_option maxHeartbeats 16000000 in
/-- The number of voxels. -/
theorem voxelNum
    (h8 : VR (Proc.devRef .tc Cert.ReferenceIdeal.main_v28) = VK (Proc.devRef .tc Cert.KernelIdeal.main_v8)) :
    after Cert.ReferenceIdeal.Hand.tailOps VR (Proc.devRef .tc Cert.ReferenceIdeal.main_v134)
      = after tailK VK (Proc.devRef .tc Cert.KernelIdeal.main_v117) := by
  simp only [tailK, Cert.ReferenceIdeal.Hand.tailOps, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15,
    List.flatten_cons, List.flatten_nil, List.append_nil, List.cons_append, List.nil_append]
  simp only [K.catNew_eq, K.catIdx_eq, R.catNew_eq, R.catIdx_eq]
  after_results_simp
  simp only [h8]
  rfl

attribute [local irreducible] Host.sort2 Host.gather Host.scatter Host.reduceWindow Host.reduce Host.reverse in
set_option maxHeartbeats 16000000 in
-- the gathered rows' index column is typed through its buffer: a plain definition away from a vector of words
set_option backward.isDefEq.respectTransparency.types false in
/-- The voxel coordinates per voxel: the kernel's rows gathered from the z, y, x columns are the reference's reversed
    rows of its x, y, z array; everything else is the same composition. -/
theorem coors (p : Cert.Spec.SP.Idx → EReal)
    (h8 : VR (Proc.devRef .tc Cert.ReferenceIdeal.main_v28) = VK (Proc.devRef .tc Cert.KernelIdeal.main_v8))
    (hz : VK (Proc.devRef .tc Cert.KernelIdeal.main_v2) = Cert.Spec.czArr p)
    (hy : VK (Proc.devRef .tc Cert.KernelIdeal.main_v4) = Cert.Spec.cyArr p)
    (hx : VK (Proc.devRef .tc Cert.KernelIdeal.main_v6) = Cert.Spec.cxArr p)
    (hc : VR (Proc.devRef .tc Cert.ReferenceIdeal.main_v8) = Cert.Spec.cArr p) :
    after Cert.ReferenceIdeal.Hand.tailOps VR (Proc.devRef .tc Cert.ReferenceIdeal.main_v130)
      = after tailK VK (Proc.devRef .tc Cert.KernelIdeal.main_v113) := by
  simp only [tailK, Cert.ReferenceIdeal.Hand.tailOps, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15,
    List.flatten_cons, List.flatten_nil, List.append_nil, List.cons_append, List.nil_append]
  simp only [K.catNew_eq, K.catIdx_eq, R.catNew_eq, R.catIdx_eq]
  simp (disch := decide) only [after_cons, after_nil, nullary_result', unary_result', binary_result', ternary_result', quaternary_result', reshape_result', unaryIndexed_result', binaryIndexed_result', nullary_result_ne', unary_result_ne', binary_result_ne', ternary_result_ne', quaternary_result_ne', reshape_result_ne', nary_result_ne', unaryIndexed_result_ne', binaryIndexed_result_ne', K.czyx_result']
  simp only [h8, hz, hy, hx, hc]
  rw [Cert.KernelIdeal.Czyx.gather_czyx]
  rfl

end Cert.Bridge

end
-- ==== Proof.lean ====
/-
  Bucketing four million points into voxels: the kernel's program against its jnp reference.

  Both programs give each point three integer voxel coordinates `⌊(x - lo) / size⌋` and a flat voxel id (a sentinel
  when the point lies outside the grid), then sort the points by that id, rank them inside their voxel, order the
  voxels by first appearance and scatter the first 35 points of the first 20000 voxels, their count, the voxel
  coordinates and the number of voxels into four fixed-size results. The kernel's program computes the coordinates and
  the id in one region over sixteen blocks of 250000 points; the reference computes them by host operations over the
  whole array. At the extended reals the two compute the same integers point by point: the same subtraction, division,
  floor and conversion with the same constant words, and the same six bounds conjoined in another grouping. From there
  on the two programs apply the same operations to the same flat ids (`Bridge`), and the coordinates reach the last
  scatter as the same rows (`gather_czyx`). No law of the reals that fails at an infinity is used, so the finiteness
  of the points is never opened. The idealization of the kernel's program rewrote nothing.
-/
import proofs.«173120_j5892695130408_1_alg».proof.Defs
import proofs.«173120_j5892695130408_1_alg».proof.Proof.Gen.Kernel
import proofs.«173120_j5892695130408_1_alg».proof.Proof.Gen.KernelIdeal
import proofs.«173120_j5892695130408_1_alg».proof.Proof.Gen.ReferenceIdeal
import proofs.«173120_j5892695130408_1_alg».proof.Proof.Gen.Pre_finite_inputs
import proofs.«173120_j5892695130408_1_alg».proof.Proof.FrameK
import proofs.«173120_j5892695130408_1_alg».proof.Proof.FrameKI
import proofs.«173120_j5892695130408_1_alg».proof.Proof.RefRun
import proofs.«173120_j5892695130408_1_alg».proof.Proof.KValue
import proofs.«173120_j5892695130408_1_alg».proof.Proof.KHead
import proofs.«173120_j5892695130408_1_alg».proof.Proof.RHead
import proofs.«173120_j5892695130408_1_alg».proof.Proof.Bridges
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-! ## The frames -/

theorem frame_k : Cert.frame_Kernel := fun m ρ _ => Cert.Kernel.Frame.frame m ρ
theorem frame_ki : Cert.frame_KernelIdeal := fun m ρ _ => Cert.KernelIdeal.Frame.frame m ρ
/-- The reference is a straight line of host operations none of which writes the points array. -/
theorem frame_ri : Cert.frame_ReferenceIdeal := fun m ρ _ =>
  (θ_run Cert.ReferenceIdeal.defs _ _).mono
    (fun _ h c => (h c Cert.ReferenceIdeal.main_arg0).trans
      ((Cert.ReferenceIdeal.Hand.tail_arg0 _).trans (Cert.ReferenceIdeal.Hand.head_arg0 _)))
    (Cert.ReferenceIdeal.Hand.run (F := Ideal) m ρ)

/-! ## The kernel program's buffers when its region is left -/

section Exit

open Cert.KernelIdeal Cert.KernelIdeal.Gen Cert.KernelIdeal.Frame

variable (m : (ℓ : Loc nD τ sig) → Buf (Elt Ideal) ℓ)

/-- A core's buffers at the region's exit: the staged arrays at what the region left, the rest as launched. -/
abbrev exitK (c : Dev nD) : Valuation τ sig (Elt Ideal) :=
  Pipeline.withArrays spec0 c (V0 m c) fun w => (dats m 0 c).arrAt w cfg0.N

/-- The result array holds each point's z, y, x voxel coordinates and flat id. -/
theorem exitK_out (c : Dev nD) :
    exitK m c (Proc.devRef .tc main_v0) = Cert.Spec.outArr (m ((c : Thread nD τ).loc main_arg0)) :=
  (Pipeline.withArrays_arr spec0 launch0.win.arr_inj c _ _ 1).trans (Cert.KernelIdeal.ArrayValue.out_array m c)

/-- The points array is as launched. -/
theorem exitK_arg0 (c : Dev nD) :
    exitK m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

/-- The later lines are the four column cuts followed by the rest. -/
theorem tail_split : List.flatten (Cert.KernelIdeal.Frame.tail (F := Ideal)) = hostOps1 ++ Cert.Bridge.tailK := rfl

/-- What a later line's buffer ends holding: the rest's fold over the column cuts' fold over the exit contents. -/
theorem afterTail_eq (c : Dev nD) (b : Ref sig .tc) :
    Pipeline.afterTail₀ cfgs (dats m) 0 (V0 m) Cert.KernelIdeal.Frame.tail c b
      = after Cert.Bridge.tailK (after hostOps1 (exitK m c)) (Proc.devRef .tc b) := by
  unfold Pipeline.afterTail₀
  rw [tail_split, StableHlo.after_append]

end Exit

/-! ## The value claim -/

theorem preserves : Cert.preserves_Kernel_KernelIdeal := trivial

theorem algebraic : Cert.algebraic_KernelIdeal_ReferenceIdeal := by
  intro m ρ m' ρ' _ hagree
  refine ⟨fun c => Pipeline.afterTail₀ Cert.KernelIdeal.cfgs (Cert.KernelIdeal.Frame.dats m) 0 (Cert.KernelIdeal.Frame.V0 m) Cert.KernelIdeal.Frame.tail c Cert.KernelIdeal.main_v96,
    fun c => Pipeline.afterTail₀ Cert.KernelIdeal.cfgs (Cert.KernelIdeal.Frame.dats m) 0 (Cert.KernelIdeal.Frame.V0 m) Cert.KernelIdeal.Frame.tail c Cert.KernelIdeal.main_v113,
    fun c => Pipeline.afterTail₀ Cert.KernelIdeal.cfgs (Cert.KernelIdeal.Frame.dats m) 0 (Cert.KernelIdeal.Frame.V0 m) Cert.KernelIdeal.Frame.tail c Cert.KernelIdeal.main_v105,
    fun c => Pipeline.afterTail₀ Cert.KernelIdeal.cfgs (Cert.KernelIdeal.Frame.dats m) 0 (Cert.KernelIdeal.Frame.V0 m) Cert.KernelIdeal.Frame.tail c Cert.KernelIdeal.main_v117,
    ?_, ?_⟩
  · -- the kernel's program: the frame run names every later line's buffer
    refine (θ_run Cert.KernelIdeal.defs _ _).mono (fun r h c => ?_) (Cert.KernelIdeal.Frame.run_main (F := Ideal) m ρ)
    exact ⟨(h c).2 Cert.KernelIdeal.main_v96 (Pipeline.mem_restRefs_of _ (by decide) (by decide)),
      (h c).2 Cert.KernelIdeal.main_v113 (Pipeline.mem_restRefs_of _ (by decide) (by decide)),
      (h c).2 Cert.KernelIdeal.main_v105 (Pipeline.mem_restRefs_of _ (by decide) (by decide)),
      (h c).2 Cert.KernelIdeal.main_v117 (Pipeline.mem_restRefs_of _ (by decide) (by decide)),
      ((h c).1 0).trans (((Cert.KernelIdeal.Frame.dats m 0 c).arrAt_in 0 rfl _).trans
        ((Cert.KernelIdeal.Frame.A_eq m c 0).trans (Cert.KernelIdeal.Frame.V_main_arg0 m c)))⟩
  · -- the reference: its run, bridged result by result
    refine (θ_run Cert.ReferenceIdeal.defs _ _).mono (fun r h c => ?_) (Cert.ReferenceIdeal.Hand.run (F := Ideal) m' ρ')
    -- the two programs' buffers where their later lines start
    let VK := after (Cert.KernelIdeal.Gen.hostOps1 (F := Ideal)) (exitK m c)
    let VR := after (Cert.ReferenceIdeal.Hand.headOps (F := Ideal)) (launchContents m' c)
    let p : Cert.Spec.SP.Idx → EReal := m ((c.tc : Thread Cert.KernelIdeal.nD Cert.KernelIdeal.τ).loc Cert.KernelIdeal.main_arg0)
    have hp : launchContents m' c (Proc.devRef .tc Cert.ReferenceIdeal.main_arg0) = p := hagree c
    have h0 : VR (Proc.devRef .tc Cert.ReferenceIdeal.main_arg0) = VK (Proc.devRef .tc Cert.KernelIdeal.main_arg0) :=
      ((Cert.ReferenceIdeal.Hand.head_arg0 _).trans hp).trans
        ((Cert.KernelIdeal.Head.head_arg0 _).trans (exitK_arg0 m c)).symm
    have h8 : VR (Proc.devRef .tc Cert.ReferenceIdeal.main_v28) = VK (Proc.devRef .tc Cert.KernelIdeal.main_v8) :=
      ((Cert.ReferenceIdeal.Head.ref_flat _).trans (congrArg Cert.Spec.flatArr hp)).trans
        (Cert.KernelIdeal.Head.head_flat _ p (exitK_out m c)).symm
    have hz := Cert.KernelIdeal.Head.head_cz (exitK m c) p (exitK_out m c)
    have hy := Cert.KernelIdeal.Head.head_cy (exitK m c) p (exitK_out m c)
    have hx := Cert.KernelIdeal.Head.head_cx (exitK m c) p (exitK_out m c)
    have hc : VR (Proc.devRef .tc Cert.ReferenceIdeal.main_v8) = Cert.Spec.cArr p :=
      (Cert.ReferenceIdeal.Head.ref_c _).trans (congrArg Cert.Spec.cArr hp)
    refine ⟨(h c Cert.ReferenceIdeal.main_v105).trans ?_, (h c Cert.ReferenceIdeal.main_v130).trans ?_,
      (h c Cert.ReferenceIdeal.main_v114).trans ?_, (h c Cert.ReferenceIdeal.main_v134).trans ?_,
      (h c Cert.ReferenceIdeal.main_arg0).trans
        ((Cert.ReferenceIdeal.Hand.tail_arg0 _).trans (Cert.ReferenceIdeal.Hand.head_arg0 _))⟩
    · exact (Cert.Bridge.voxels VK VR h0 h8).trans (afterTail_eq m c _).symm
    · exact (Cert.Bridge.coors VK VR p h8 hz hy hx hc).trans (afterTail_eq m c _).symm
    · exact (Cert.Bridge.numPoints VK VR h8).trans (afterTail_eq m c _).symm
    · exact (Cert.Bridge.voxelNum VK VR h8).trans (afterTail_eq m c _).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
